-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S32768x256 : Shape := ⟨2, ![32768, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x256 .f32) (main_arg1 : FVec F S32768x256 .f32) (main_arg2 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 32768#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x256 : Shape := ⟨2, ![4096, 256]⟩
abbrev S32768x256 : Shape := ⟨2, ![32768, 256]⟩
abbrev S4096 : Shape := ⟨1, ![4096]⟩
abbrev S_ : Shape := ⟨0, ![]⟩
abbrev S4096x1 : Shape := ⟨2, ![4096, 1]⟩
abbrev S2048x256 : Shape := ⟨2, ![2048, 256]⟩
abbrev S1024x256 : Shape := ⟨2, ![1024, 256]⟩
abbrev S2048x1 : Shape := ⟨2, ![2048, 1]⟩
abbrev S2048 : Shape := ⟨1, ![2048]⟩
abbrev S2048x1024 : Shape := ⟨2, ![2048, 1024]⟩

abbrev nBuf : Space → Nat
  | .hbm => 37
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096x1, .f32⟩
  | .hbm, ⟨12, _⟩ => ⟨S4096, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1, .f32⟩
  | .local _ .vmem, ⟨5, _⟩ => ⟨S2048x1, .f32⟩
  | .local _ .vmem, ⟨6, _⟩ => ⟨S2048x256, .bf16⟩
  | .local _ .vmem, ⟨7, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v15 : BitVec 1 := Scalar.cmpi .eq arg1 c31_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4096 : S_.BroadcastsInDim S4096 (![] : Fin 0 → Fin S4096.rank)
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x256_S1024x256_0_0 : ∀ a, (![0, 0] : Fin 2 → Nat) a + S1024x256.size a ≤ S1024x256.size a
  h_S1024x256 : 0 < S1024x256.numel
  reduces_S2048x1024_S2048 : S2048x1024.Reduces [1] S2048
  shapeCasts_S4096x1_S4096 : S4096x1.ShapeCasts S4096
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S2048x256_S1024x256_S2048x1024_1_1_0_0_n_n_wf : DotDims.WF S2048x256 S1024x256 S2048x1024 [1] [1] [0] [0] [] []
  gather_S32768x256_S4096x1_S4096x256_1_0_n_n_0_1_1256_wf : GatherDims.WF S32768x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def gather_S32768x256_S4096x1_S4096x256_1_0_n_n_0_1_1256 : GatherDims S32768x256 S4096x1 S4096x256 where
  offsetDims := [1]
  collapsedSliceDims := [0]
  operandBatchingDims := []
  startIndicesBatchingDims := []
  startIndexMap := [0]
  indexVectorDim := 1
  sliceSizes := ![1, 256]
  wf := gather_S32768x256_S4096x1_S4096x256_1_0_n_n_0_1_1256_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S32768x256 : Shape := ⟨2, ![32768, 256]⟩
abbrev S4096 : Shape := ⟨1, ![4096]⟩
abbrev S_ : Shape := ⟨0, ![]⟩
abbrev S4096x1 : Shape := ⟨2, ![4096, 1]⟩
abbrev S256x32768 : Shape := ⟨2, ![256, 32768]⟩
abbrev S4096x32768 : Shape := ⟨2, ![4096, 32768]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S32768x256, .f32⟩
  | .hbm, ⟨2, _⟩ => ⟨S4096, .i32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x256, .f32⟩
  | .hbm, ⟨9, _⟩ => ⟨S4096x256, .f32⟩
  | .hbm, ⟨10, _⟩ => ⟨S256x32768, .f32⟩
  | .hbm, ⟨11, _⟩ => ⟨S4096x32768, .f32⟩
  | .hbm, ⟨12, _⟩ => ⟨S_, .f32⟩
  | .hbm, ⟨13, _⟩ => ⟨S4096x32768, .f32⟩
  | .hbm, ⟨14, _⟩ => ⟨S4096x32768, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x32768, .f32⟩
  | .hbm, ⟨22, _⟩ => ⟨S4096x32768, .f32⟩
  | .hbm, ⟨23, _⟩ => ⟨S4096x32768, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S4096x32768, .f32⟩
  | .hbm, ⟨29, _⟩ => ⟨S4096x32768, .f32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S4096x1, .i32⟩
  | .hbm, ⟨38, _⟩ => ⟨S4096x1x1, .i32⟩
  | .hbm, ⟨39, _⟩ => ⟨S1, .i32⟩
  | .hbm, ⟨40, _⟩ => ⟨S_, .i32⟩
  | .hbm, ⟨41, _⟩ => ⟨S4096x1x1, .i32⟩
  | .hbm, ⟨42, _⟩ => ⟨S4096x1x1, .i1⟩
  | .hbm, ⟨43, _⟩ => ⟨S1x1x1, .i32⟩
  | .hbm, ⟨44, _⟩ => ⟨S4096x1x1, .i32⟩
  | .hbm, ⟨45, _⟩ => ⟨S4096x1x1, .i1⟩
  | .hbm, ⟨46, _⟩ => ⟨S4096x1x1, .i1⟩
  | .hbm, ⟨47, _⟩ => ⟨S_, .i1⟩
  | .hbm, ⟨48, _⟩ => ⟨S4096x1, .i1⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096, .f32⟩
  | .hbm, ⟨54, _⟩ => ⟨S4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_call1_cst_0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_cst_1 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_v7 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  transposes_S32768x256_S256x32768_1_0 : S32768x256.Transposes [1, 0] S256x32768
  bcast_S_S4096x32768 : S_.BroadcastsInDim S4096x32768 (![] : Fin 0 → Fin S4096x32768.rank)
  reducesTo_S4096x32768_S4096_d1 : S4096x32768.ReducesTo [1] S4096
  bcast_S_S4096 : S_.BroadcastsInDim S4096 (![] : Fin 0 → Fin S4096.rank)
  bcast_S4096x1_S4096x32768_0_1 : S4096x1.BroadcastsInDim S4096x32768 (![0, 1] : Fin 2 → Fin S4096x32768.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  dot_S4096x256_S256x32768_S4096x32768_1_0_0_1_n_n_wf : DotDims.WF S4096x256 S256x32768 S4096x32768 [1] [0] [0] [1] [] []
  gather_S4096x32768_S4096x1x1_S4096x1_n_1_0_0_1_2_11_wf : GatherDims.WF S4096x32768 S4096x1x1 S4096x1 [] [1] [0] [1] [0] 2 ![1, 1]

variable [Facts₀]

def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf
def gather_S4096x32768_S4096x1x1_S4096x1_n_1_0_0_1_2_11 : GatherDims S4096x32768 S4096x1x1 S4096x1 where
  offsetDims := []
  collapsedSliceDims := [1]
  operandBatchingDims := [0]
  startIndicesBatchingDims := [0]
  startIndexMap := [1]
  indexVectorDim := 2
  sliceSizes := ![1, 1]
  wf := gather_S4096x32768_S4096x1x1_S4096x1_n_1_0_0_1_2_11_wf

class Facts : Prop extends Facts₀ where

variable [Facts]
-- ==== Proof.RefFold.lean ====
/-
  The reference program's 52 host operations, folded over any buffer contents, leave in the result buffer the
  composition of the per-operation stage functions applied to the three arguments: each operation reads buffers
  written once, earlier, so the fold over the list is evaluated stretch by stretch (norm and normalised rows;
  logits; log-softmax; the label lookup), each stretch's outputs as functions of its inputs.

  The list is cut into seven consecutive stretches. For each stretch, from ANY contents `W`: the one buffer a later
  stretch reads is the matching stage function, provided the buffers the stretch itself reads hold their stages; and
  the three buffers that cross a stretch which does not write them are left as they were. The fold over the whole
  list is the composition of the folds over the stretches, so the facts chain from the arguments to the result.
-/
import proofs.«423801_j14465449853585_3_alg».proof.Proof.RefRead
import Idealize.ShloMosaic.Lib.StableHlo.Run
import Idealize.ShloMosaic.Lib.Pipeline.Frame

noncomputable section

namespace Cert.ReferenceIdeal.Fold

open Idealize.ShloMosaic Idealize.ShloMosaic.TcCoe Idealize.SL.Sem Idealize.ShloMosaic.StableHlo
open Cert.ReferenceIdeal Cert.ReferenceIdeal.Gen

variable {F : FTy → Type} [FloatOps F]

/-! ## The seven stretches -/

/-- Operations 1 to 7: the squared row norm, its square root, and the rows divided by it. Reads the first
    argument; a later stretch reads only the normalised rows. -/
def opsNorm : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x256 ![0, 1] bcast_S4096x1_S4096x256_0_1 : (⟨S4096x1, .f32⟩ : BufTy).Contents (Elt F) → (⟨S4096x256, .f32⟩ : BufTy).Contents (Elt F)),
    binary main_arg0 main_v1 main_v2 (Host.divf : (⟨S4096x256, .f32⟩ : BufTy).Contents (Elt F) → (⟨S4096x256, .f32⟩ : BufTy).Contents (Elt F) → (⟨S4096x256, .f32⟩ : BufTy).Contents (Elt F)) ]

/-- Operations 8 to 12: the transposed second argument, the product with the normalised rows, and the division by
    the temperature. A later stretch reads only the scaled logits. -/
def opsLogits : List (HloOp τ sig (Elt F)) :=
  [ unary main_arg1 main_v3 ((transpose S256x32768 [1, 0] · transposes_S32768x256_S256x32768_1_0) : (⟨S32768x256, .f32⟩ : BufTy).Contents (Elt F) → (⟨S256x32768, .f32⟩ : BufTy).Contents (Elt F)),
    binary main_v2 main_v3 main_v4 ((fun l r => Host.dotGeneral dot_S4096x256_S256x32768_S4096x32768_1_0_0_1_n_n none l r) : (⟨S4096x256, .f32⟩ : BufTy).Contents (Elt F) → (⟨S256x32768, .f32⟩ : BufTy).Contents (Elt F) → (⟨S4096x32768, .f32⟩ : BufTy).Contents (Elt F)),
    nullary main_cst (constant S_ .f32 0x3D4CCCCD#32),
    unary main_cst main_v5 (broadcastInDim S4096x32768 ![] bcast_S_S4096x32768 : (⟨S_, .f32⟩ : BufTy).Contents (Elt F) → (⟨S4096x32768, .f32⟩ : BufTy).Contents (Elt F)),
    binary main_v4 main_v5 main_v6 (Host.divf : (⟨S4096x32768, .f32⟩ : BufTy).Contents (Elt F) → (⟨S4096x32768, .f32⟩ : BufTy).Contents (Elt F) → (⟨S4096x32768, .f32⟩ : BufTy).Contents (Elt F)) ]

/-- Operations 13 to 20: the row maximum of the scaled logits and the logits shifted by it. -/
def opsShift : List (HloOp τ sig (Elt F)) :=
  [ TRef.nullary (TRef.of (T := ⟨S_, .f32⟩) main_call1_cst) (constant S_ .f32 0xFF800000#32),
    TRef.binary (TRef.of (T := ⟨S4096x32768, .f32⟩) main_v6) (TRef.of (T := ⟨S_, .f32⟩) main_call1_cst) (TRef.of (T := ⟨S4096, .f32⟩) main_call1_v0) (fun x v => Host.reduce FloatOps.maximumf x v reducesTo_S4096x32768_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x32768, .f32⟩) main_call1_v4) (broadcastInDim S4096x32768 ![0, 1] bcast_S4096x1_S4096x32768_0_1),
    TRef.binary (TRef.of (T := ⟨S4096x32768, .f32⟩) main_v6) (TRef.of (T := ⟨S4096x32768, .f32⟩) main_call1_v4) (TRef.of (T := ⟨S4096x32768, .f32⟩) main_call1_v5) subf ]

/-- Operations 21 to 27: the logarithm of the row sum of exponentials, subtracted from the shifted logits. -/
def opsLogSoftmax : List (HloOp τ sig (Elt F)) :=
  [ TRef.unary (TRef.of (T := ⟨S4096x32768, .f32⟩) main_call1_v5) (TRef.of (T := ⟨S4096x32768, .f32⟩) main_call1_v6) Host.exp,
    TRef.nullary (TRef.of (T := ⟨S_, .f32⟩) main_call1_cst_1) (constant S_ .f32 0x00000000#32),
    TRef.binary (TRef.of (T := ⟨S4096x32768, .f32⟩) main_call1_v6) (TRef.of (T := ⟨S_, .f32⟩) main_call1_cst_1) (TRef.of (T := ⟨S4096, .f32⟩) main_call1_v7) (fun x v => Host.reduceAdd x v reducesTo_S4096x32768_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x32768, .f32⟩) main_call1_v10) (broadcastInDim S4096x32768 ![0, 1] bcast_S4096x1_S4096x32768_0_1),
    TRef.binary (TRef.of (T := ⟨S4096x32768, .f32⟩) main_call1_v5) (TRef.of (T := ⟨S4096x32768, .f32⟩) main_call1_v10) (TRef.of (T := ⟨S4096x32768, .f32⟩) main_v7) subf ]

/-- Operations 28 to 36: the labels as a column, a negative label wrapped around by the row length, reshaped to
    the index tensor of the lookup. Reads the third argument only. -/
def opsIndex : List (HloOp τ sig (Elt F)) :=
  [ unary main_arg2 main_v8 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x1, .i32⟩) main_call2_v0) (broadcastInDim S4096x1 ![] bcast_S_S4096x1),
    TRef.binary (TRef.of (T := ⟨S4096x1, .i32⟩) main_v8) (TRef.of (T := ⟨S4096x1, .i32⟩) main_call2_v0) (TRef.of (T := ⟨S4096x1, .i1⟩) main_call2_v1) (cmpi .slt),
    TRef.nullary (TRef.of (T := ⟨S_, .i32⟩) main_call2_c_0) (constantI S_ 32 32768#32),
    TRef.unary (TRef.of (T := ⟨S_, .i32⟩) main_call2_c_0) (TRef.of (T := ⟨S4096x1, .i32⟩) main_call2_v2) (broadcastInDim S4096x1 ![] bcast_S_S4096x1),
    TRef.binary (TRef.of (T := ⟨S4096x1, .i32⟩) main_v8) (TRef.of (T := ⟨S4096x1, .i32⟩) main_call2_v2) (TRef.of (T := ⟨S4096x1, .i32⟩) main_call2_v3) addi,
    TRef.ternary (TRef.of (T := ⟨S4096x1, .i1⟩) main_call2_v1) (TRef.of (T := ⟨S4096x1, .i32⟩) main_call2_v3) (TRef.of (T := ⟨S4096x1, .i32⟩) main_v8) (TRef.of (T := ⟨S4096x1, .i32⟩) main_call2_v4) select,
    TRef.reshape (TRef.of (T := ⟨S4096x1, .i32⟩) main_call2_v4) (TRef.of (T := ⟨S4096x1x1, .i32⟩) main_call2_v5) rfl shapeCasts_S4096x1_S4096x1x1 ]

/-- Operations 37 to 50: the range test of the index, the element of each log-softmax row at its index, and the
    choice between it and the not-a-number fill. -/
def opsLookup : List (HloOp τ sig (Elt F)) :=
  [ TRef.nullary (TRef.of (T := ⟨S1, .i32⟩) main_call2_c_1) (constantI S1 32 32767#32),
    TRef.nullary (TRef.of (T := ⟨S_, .i32⟩) main_call2_c_2) (constantI S_ 32 0#32),
    TRef.unary (TRef.of (T := ⟨S_, .i32⟩) main_call2_c_2) (TRef.of (T := ⟨S4096x1x1, .i32⟩) main_call2_v6) (broadcastInDim S4096x1x1 ![] bcast_S_S4096x1x1),
    TRef.binary (TRef.of (T := ⟨S4096x1x1, .i32⟩) main_call2_v5) (TRef.of (T := ⟨S4096x1x1, .i32⟩) main_call2_v6) (TRef.of (T := ⟨S4096x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x1x1, .i32⟩) main_call2_v9) (broadcastInDim S4096x1x1 ![0, 1, 2] bcast_S1x1x1_S4096x1x1_0_1_2),
    TRef.binary (TRef.of (T := ⟨S4096x1x1, .i32⟩) main_call2_v5) (TRef.of (T := ⟨S4096x1x1, .i32⟩) main_call2_v9) (TRef.of (T := ⟨S4096x1x1, .i1⟩) main_call2_v10) (cmpi .sle),
    TRef.binary (TRef.of (T := ⟨S4096x1x1, .i1⟩) main_call2_v7) (TRef.of (T := ⟨S4096x1x1, .i1⟩) main_call2_v10) (TRef.of (T := ⟨S4096x1x1, .i1⟩) main_call2_v11) andi,
    TRef.nullary (TRef.of (T := ⟨S_, .i1⟩) main_call2_c_3) (constantI S_ 1 1#1),
    TRef.binary (TRef.of (T := ⟨S4096x1x1, .i1⟩) main_call2_v11) (TRef.of (T := ⟨S_, .i1⟩) main_call2_c_3) (TRef.of (T := ⟨S4096x1, .i1⟩) main_call2_v12) (fun x v => Host.reduce IntOp.andi x v reducesTo_S4096x1x1_S4096x1_d2 h_S_),
    TRef.binary (TRef.of (T := ⟨S4096x32768, .f32⟩) main_v7) (TRef.of (T := ⟨S4096x1x1, .i32⟩) main_call2_v5) (TRef.of (T := ⟨S4096x1, .f32⟩) main_call2_v13) (fun x i => Host.gather gather_S4096x32768_S4096x1x1_S4096x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x1, .f32⟩) main_call2_v14) (broadcastInDim S4096x1 ![] bcast_S_S4096x1),
    TRef.ternary (TRef.of (T := ⟨S4096x1, .i1⟩) main_call2_v12) (TRef.of (T := ⟨S4096x1, .f32⟩) main_call2_v13) (TRef.of (T := ⟨S4096x1, .f32⟩) main_call2_v14) (TRef.of (T := ⟨S4096x1, .f32⟩) main_v9) select ]

/-- Operations 51 and 52: the column reshaped to a vector, and its exponential. -/
def opsOut : List (HloOp τ sig (Elt F)) :=
  [ reshape main_v9 main_v10 rfl shapeCasts_S4096x1_S4096,
    unary main_v10 main_v11 (Host.exp : (⟨S4096, .f32⟩ : BufTy).Contents (Elt F) → (⟨S4096, .f32⟩ : BufTy).Contents (Elt F)) ]

set_option maxRecDepth 8192 in
/-- The program's list is the seven stretches in a row. -/
theorem ops_eq : ValueP.ops (F := F)
    = opsNorm ++ (opsLogits ++ (opsShift ++ (opsLogSoftmax ++ (opsIndex ++ (opsLookup ++ opsOut))))) := rfl

/-! ## Typed references

An operation of a called function reads and writes its buffers through a transport along the equation between the
buffer's type and the value's type. Written then read at one reference the two transports cancel, for any reference;
at a reference whose own type is the value's type each transport is the identity. -/

theorem ofBuf_toBuf {T : BufTy} (x : TRef sig T) (v : T.Contents (Elt F)) : x.ofBuf (x.toBuf v) = v := by
  unfold TRef.ofBuf TRef.toBuf
  rw [cast_cast, cast_eq]

theorem ofBuf_of (r : Ref sig .tc) (h1 : r.ty = r.ty) (h2 : r.space ≠ .host) (h3 : r.isScoped = false)
    (v : r.ty.Contents (Elt F)) : (TRef.of (T := r.ty) r h1 h2 h3).ofBuf v = v := rfl

theorem toBuf_of (r : Ref sig .tc) (h1 : r.ty = r.ty) (h2 : r.space ≠ .host) (h3 : r.isScoped = false)
    (v : r.ty.Contents (Elt F)) : (TRef.of (T := r.ty) r h1 h2 h3).toBuf v = v := rfl

/-! ## Each stretch, from any contents -/

/-- After the first stretch the normalised rows are their stage of the first argument. -/
theorem norm_v2 (W : Valuation τ sig (Elt F)) :
    (after (opsNorm (F := F)) W (Proc.devRef .tc main_v2) : (⟨S4096x256, .f32⟩ : BufTy).Contents (Elt F))
      = ReadP.val_main_v2 (F := F) (W (Proc.devRef .tc main_arg0)) := by
  unfold opsNorm
  after_results_simp
  simp only [ofBuf_toBuf]
  erw [ofBuf_of main_arg0, toBuf_of main_v0]
  rfl

/-- The first stretch does not write the second argument. -/
theorem norm_keeps_arg1 (W : Valuation τ sig (Elt F)) :
    (after (opsNorm (F := F)) W (Proc.devRef .tc main_arg1) : (⟨S32768x256, .f32⟩ : BufTy).Contents (Elt F))
      = W (Proc.devRef .tc main_arg1) := by
  unfold opsNorm
  after_results_simp <;> rfl

/-- After the second stretch, from contents holding the normalised rows, the scaled logits are their stage. -/
theorem logits_v6 (W : Valuation τ sig (Elt F)) (x0 : (⟨S4096x256, .f32⟩ : BufTy).Contents (Elt F)) (x1 : (⟨S32768x256, .f32⟩ : BufTy).Contents (Elt F))
    (h2 : (W (Proc.devRef .tc main_v2) : (⟨S4096x256, .f32⟩ : BufTy).Contents (Elt F)) = ReadP.val_main_v2 (F := F) x0)
    (h1 : (W (Proc.devRef .tc main_arg1) : (⟨S32768x256, .f32⟩ : BufTy).Contents (Elt F)) = x1) :
    (after (opsLogits (F := F)) W (Proc.devRef .tc main_v6) : (⟨S4096x32768, .f32⟩ : BufTy).Contents (Elt F))
      = ReadP.val_main_v6 (F := F) x0 x1 := by
  unfold opsLogits
  after_results_simp
  rw [h2, h1]
  rfl

/-- After the third stretch, from contents holding the scaled logits, the shifted logits are their stage. -/
theorem shift_v5 (W : Valuation τ sig (Elt F)) (x0 : (⟨S4096x256, .f32⟩ : BufTy).Contents (Elt F)) (x1 : (⟨S32768x256, .f32⟩ : BufTy).Contents (Elt F))
    (h6 : (W (Proc.devRef .tc main_v6) : (⟨S4096x32768, .f32⟩ : BufTy).Contents (Elt F)) = ReadP.val_main_v6 (F := F) x0 x1) :
    (after (opsShift (F := F)) W (Proc.devRef .tc main_call1_v5) : (⟨S4096x32768, .f32⟩ : BufTy).Contents (Elt F))
      = ReadP.val_main_call1_v5 (F := F) x0 x1 := by
  unfold opsShift
  after_results_simp
  simp only [ofBuf_toBuf]
  erw [ofBuf_of main_v6, toBuf_of main_call1_v5]
  rw [h6]
  rfl

/-- After the fourth stretch, from contents holding the shifted logits, the log-softmax is its stage. -/
theorem logSoftmax_v7 (W : Valuation τ sig (Elt F)) (x0 : (⟨S4096x256, .f32⟩ : BufTy).Contents (Elt F)) (x1 : (⟨S32768x256, .f32⟩ : BufTy).Contents (Elt F))
    (h5 : (W (Proc.devRef .tc main_call1_v5) : (⟨S4096x32768, .f32⟩ : BufTy).Contents (Elt F)) = ReadP.val_main_call1_v5 (F := F) x0 x1) :
    (after (opsLogSoftmax (F := F)) W (Proc.devRef .tc main_v7) : (⟨S4096x32768, .f32⟩ : BufTy).Contents (Elt F))
      = ReadP.val_main_v7 (F := F) x0 x1 := by
  unfold opsLogSoftmax
  after_results_simp
  simp only [ofBuf_toBuf]
  erw [ofBuf_of main_call1_v5, toBuf_of main_v7]
  rw [h5]
  rfl

/-- None of the first four stretches writes the third argument. -/
theorem head_keeps_arg2 (W : Valuation τ sig (Elt F)) :
    (after (opsLogSoftmax (F := F)) (after opsShift (after opsLogits (after opsNorm W))) (Proc.devRef .tc main_arg2) : (⟨S4096, .i32⟩ : BufTy).Contents (Elt F))
      = W (Proc.devRef .tc main_arg2) := by
  unfold opsLogSoftmax opsShift opsLogits opsNorm
  after_results_simp <;> rfl

/-- After the fifth stretch the lookup's index tensor is its stage of the third argument. -/
theorem index_v5 (W : Valuation τ sig (Elt F)) (x2 : (⟨S4096, .i32⟩ : BufTy).Contents (Elt F))
    (h : (W (Proc.devRef .tc main_arg2) : (⟨S4096, .i32⟩ : BufTy).Contents (Elt F)) = x2) :
    (after (opsIndex (F := F)) W (Proc.devRef .tc main_call2_v5) : (⟨S4096x1x1, .i32⟩ : BufTy).Contents (Elt F))
      = ReadP.val_main_call2_v5 (F := F) x2 := by
  unfold opsIndex
  after_results_simp
  simp only [ofBuf_toBuf]
  erw [ofBuf_of main_v8, toBuf_of main_call2_v4]
  rw [h]
  rfl

/-- The fifth stretch does not write the log-softmax. -/
theorem index_keeps_v7 (W : Valuation τ sig (Elt F)) :
    (after (opsIndex (F := F)) W (Proc.devRef .tc main_v7) : (⟨S4096x32768, .f32⟩ : BufTy).Contents (Elt F))
      = W (Proc.devRef .tc main_v7) := by
  unfold opsIndex
  after_results_simp <;> rfl

/-- After the sixth stretch, from contents holding the log-softmax and the index tensor, the looked-up column is
    its stage. -/
theorem lookup_v9 (W : Valuation τ sig (Elt F)) (x0 : (⟨S4096x256, .f32⟩ : BufTy).Contents (Elt F)) (x1 : (⟨S32768x256, .f32⟩ : BufTy).Contents (Elt F)) (x2 : (⟨S4096, .i32⟩ : BufTy).Contents (Elt F))
    (h7 : (W (Proc.devRef .tc main_v7) : (⟨S4096x32768, .f32⟩ : BufTy).Contents (Elt F)) = ReadP.val_main_v7 (F := F) x0 x1)
    (h5 : (W (Proc.devRef .tc main_call2_v5) : (⟨S4096x1x1, .i32⟩ : BufTy).Contents (Elt F)) = ReadP.val_main_call2_v5 (F := F) x2) :
    (after (opsLookup (F := F)) W (Proc.devRef .tc main_v9) : (⟨S4096x1, .f32⟩ : BufTy).Contents (Elt F))
      = ReadP.val_main_v9 (F := F) x0 x1 x2 := by
  unfold opsLookup
  after_results_simp
  simp only [ofBuf_toBuf]
  erw [ofBuf_of main_call2_v5, ofBuf_of main_v7, toBuf_of main_v9]
  rw [h7, h5]
  rfl

/-- After the last stretch, from contents holding the looked-up column, the result is the last stage. -/
theorem out_v11 (W : Valuation τ sig (Elt F)) (x0 : (⟨S4096x256, .f32⟩ : BufTy).Contents (Elt F)) (x1 : (⟨S32768x256, .f32⟩ : BufTy).Contents (Elt F)) (x2 : (⟨S4096, .i32⟩ : BufTy).Contents (Elt F))
    (h9 : (W (Proc.devRef .tc main_v9) : (⟨S4096x1, .f32⟩ : BufTy).Contents (Elt F)) = ReadP.val_main_v9 (F := F) x0 x1 x2) :
    (after (opsOut (F := F)) W (Proc.devRef .tc main_v11) : (⟨S4096, .f32⟩ : BufTy).Contents (Elt F))
      = ReadP.val_main_v11 (F := F) x0 x1 x2 := by
  unfold opsOut
  after_results_simp
  rw [h9]
  rfl

/-! ## The whole list -/

/-- The result buffer after the whole program, from any contents `V`: the last stage of the three arguments. -/
theorem fold_result (V : Valuation τ sig (Elt F)) :
    (after (Cert.ReferenceIdeal.ValueP.ops (F := F)) V (Proc.devRef .tc main_v11) : (⟨S4096, .f32⟩ : BufTy).Contents (Elt F))
      = Cert.ReferenceIdeal.ReadP.val_main_v11 (F := F) (V (Proc.devRef .tc main_arg0)) (V (Proc.devRef .tc main_arg1)) (V (Proc.devRef .tc main_arg2)) := by
  -- the fold over the seven stretches in a row is the seven folds composed
  rw [ops_eq, after_append, after_append, after_append, after_append, after_append, after_append]
  -- the stages, in program order: each stretch's hypothesis is the fact of the stretch before
  have v2 := norm_v2 V
  have v6 := logits_v6 _ _ _ v2 (norm_keeps_arg1 V)
  have c5 := shift_v5 _ _ _ v6
  have v7 := logSoftmax_v7 _ _ _ c5
  have i5 := index_v5 _ _ (head_keeps_arg2 V)
  have v7' := (index_keeps_v7 _).trans v7
  have v9 := lookup_v9 _ _ _ _ v7' i5
  exact out_v11 _ _ _ _ v9

end Cert.ReferenceIdeal.Fold

end
-- ==== Proof.SoftmaxLaw.lean ====
/-
  The algebraic laws, on the extended reals, that join the kernel's arrangement to the reference's.

  * The temperature literal is a positive real `k`.
  * Dividing by a positive real distributes over a finite sum of extended reals and moves across a product, so a
    row's scaled dot product `∑ d, (f d / k) * c d` is the reference's `(∑ d, f d * c d) / k`, whatever the
    entries are (infinities included).
  * The softmax probability at a label computed with the row maximum subtracted first is the one computed
    without the shift: `exp ((l j - M) - log (∑ c, exp (l c - M))) = exp (l j - log (∑ c, exp (l c)))` for every
    family `l` of extended reals whose maximum `M` is attained. For real entries this is `log (e^{-M} S) = -M + log S`;
    when some entry is `⊤` both sides are `exp ⊥ = 0`; when every entry is `⊥` both sides are `0` again.
-/
import Idealize.ShloMosaic.PureOps.Ideal
import Idealize.ShloMosaic.PureOps.Ideal.Laws

noncomputable section

namespace Cert.SoftmaxLaw

open Idealize.ShloMosaic

/-- The temperature literal `0x3D4CCCCD` (the f32 nearest 0.05) denotes a positive real. -/
theorem temp_pos : ∃ k : ℝ, 0 < k ∧ Ideal.ofBits .f32 0x3D4CCCCD#32 = (k : EReal) := by
  -- sign bit 0, exponent field 122, fraction field 5033165: the normal number (2^23 + 5033165) · 2^(122 - 127 - 23).
  refine ⟨(13421773 : ℝ) * (2 : ℝ) ^ (-28 : Int), by positivity, ?_⟩
  simp [Ideal.ofBits, Ideal.ieee]

/-- Multiplication on the right by a nonnegative real distributes over a finite sum of extended reals: it does
    over a sum of two, whatever they are (`⊤ + ⊥ = ⊥` is sent to `⊤ + ⊥` or `0 + 0`). -/
private theorem sum_mul_coe {ι : Type*} (s : Finset ι) (a : ι → EReal) {r : ℝ} (hr : 0 ≤ r) :
    (∑ d ∈ s, a d) * (r : EReal) = ∑ d ∈ s, a d * (r : EReal) := by
  classical
  induction s using Finset.induction_on with
  | empty => simp
  | insert x s hx ih =>
    rw [Finset.sum_insert hx, Finset.sum_insert hx,
      EReal.right_distrib_of_nonneg_of_ne_top (by exact_mod_cast hr) (EReal.coe_ne_top r), ih]

/-- Division by a positive real distributes over a finite sum of extended reals. -/
theorem div_sum {ι : Type*} [Fintype ι] (a : ι → EReal) {k : ℝ} (hk : 0 < k) :
    Ideal.div (∑ d, a d) (k : EReal) = ∑ d, Ideal.div (a d) (k : EReal) := by
  simp only [Ideal.div_coe hk.ne']
  exact sum_mul_coe _ a (by positivity)

/-- A row's dot product with every left factor divided by `k` first is the dot product divided by `k`. -/
theorem scaled_dot {ι : Type*} [Fintype ι] (f c : ι → EReal) {k : ℝ} (hk : 0 < k) :
    ∑ d, Ideal.div (f d) (k : EReal) * c d = Ideal.div (∑ d, f d * c d) (k : EReal) := by
  rw [div_sum _ hk]
  refine Finset.sum_congr rfl fun d _ => ?_
  rw [Ideal.div_coe hk.ne', Ideal.div_coe hk.ne', mul_right_comm]

/-- A finite sum of reals, read in the extended reals, is the sum of the readings. -/
private theorem coe_sum {ι : Type*} (s : Finset ι) (h : ι → ℝ) :
    ∑ c ∈ s, ((h c : ℝ) : EReal) = ((∑ c ∈ s, h c : ℝ) : EReal) := by
  classical
  induction s using Finset.induction_on with
  | empty => simp
  | insert x s hx ih => rw [Finset.sum_insert hx, Finset.sum_insert hx, EReal.coe_add, ih]

/-- The exponential is nonnegative everywhere. -/
private theorem exp_nonneg (x : EReal) : 0 ≤ Ideal.exp x := by
  induction x using EReal.rec with
  | bot => simp
  | coe r => rw [Ideal.exp_coe]; exact_mod_cast (Real.exp_pos r).le
  | top => simp

/-- The logarithm's value at zero is `⊥`. -/
private theorem log_zero : Ideal.log 0 = ⊥ := by
  rw [← EReal.coe_zero, Ideal.log_coe, if_pos le_rfl]

/-- Below `⊤` the exponential is a real number. -/
private theorem exp_eq_coe {x : EReal} (hx : x ≠ ⊤) : Ideal.exp x = ((Ideal.exp x).toReal : EReal) := by
  induction x using EReal.rec with
  | bot => simp
  | coe r => simp
  | top => exact absurd rfl hx

/-- Below `⊤`, shifting the argument by a real `m` scales the exponential by `e^{-m}` (at `⊥`: `0 = e^{-m} · 0`). -/
private theorem exp_sub_coe {x : EReal} (hx : x ≠ ⊤) (m : ℝ) :
    Ideal.exp (x - (m : EReal)) = ((Real.exp (-m) * (Ideal.exp x).toReal : ℝ) : EReal) := by
  induction x using EReal.rec with
  | bot => simp [EReal.bot_sub]
  | coe r =>
    rw [← EReal.coe_sub, Ideal.exp_coe, Ideal.exp_coe, EReal.toReal_coe, ← Real.exp_add]
    congr 2; ring
  | top => exact absurd rfl hx

/-- The maximum is `⊤`: every shifted entry is `⊥`, so the left side is `exp (⊥ - ⊥) = exp ⊥`; the unshifted sum
    has a term `⊤` and no negative one, so it is `⊤` and the right side is `exp (l j - ⊤) = exp ⊥`. -/
private theorem shift_top {ι : Type*} [Fintype ι] (l : ι → EReal) (hatt : ∃ c, l c = ⊤) (j : ι) :
    Ideal.exp ((l j - ⊤) - Ideal.log (∑ c, Ideal.exp (l c - ⊤)))
      = Ideal.exp (l j - Ideal.log (∑ c, Ideal.exp (l c))) := by
  classical
  obtain ⟨c0, h0⟩ := hatt
  have hS : ∑ c, Ideal.exp (l c) = ⊤ := by
    rw [← Finset.add_sum_erase Finset.univ _ (Finset.mem_univ c0), h0, Ideal.exp_top]
    exact EReal.top_add_of_ne_bot
      (ne_of_gt (lt_of_lt_of_le EReal.bot_lt_zero (Finset.sum_nonneg fun c _ => exp_nonneg _)))
  simp only [EReal.sub_top, Ideal.exp_bot, Finset.sum_const_zero, log_zero, hS, Ideal.log_top, EReal.bot_sub]

/-- The maximum is a real `m`: every entry is `⊥` or real, the exponentials are nonnegative reals `g c` with
    `exp (l c - m) = e^{-m} g c`, their sum `S` is at least the attained term `e^m > 0`, and
    `log (e^{-m} S) = -m + log S`; so the two exponents agree for a real `l j`, and both are `⊥` for `l j = ⊥`. -/
private theorem shift_real {ι : Type*} [Fintype ι] (l : ι → EReal) (m : ℝ) (hub : ∀ c, l c ≤ (m : EReal))
    (hatt : ∃ c, l c = (m : EReal)) (j : ι) :
    Ideal.exp ((l j - (m : EReal)) - Ideal.log (∑ c, Ideal.exp (l c - (m : EReal))))
      = Ideal.exp (l j - Ideal.log (∑ c, Ideal.exp (l c))) := by
  classical
  obtain ⟨c0, h0⟩ := hatt
  have hne_top : ∀ c, l c ≠ ⊤ := fun c h => by
    have := hub c
    rw [h, top_le_iff] at this
    exact EReal.coe_ne_top m this
  obtain ⟨g, hg, hg', hg0, hgc0⟩ : ∃ g : ι → ℝ, (∀ c, Ideal.exp (l c) = (g c : EReal)) ∧
      (∀ c, Ideal.exp (l c - (m : EReal)) = ((Real.exp (-m) * g c : ℝ) : EReal)) ∧ (∀ c, 0 ≤ g c) ∧
      g c0 = Real.exp m :=
    ⟨fun c => (Ideal.exp (l c)).toReal, fun c => exp_eq_coe (hne_top c), fun c => exp_sub_coe (hne_top c) m,
      fun c => EReal.toReal_nonneg (exp_nonneg _), by simp [h0]⟩
  have hS : 0 < ∑ c, g c :=
    lt_of_lt_of_le (hgc0 ▸ Real.exp_pos m) (Finset.single_le_sum (fun c _ => hg0 c) (Finset.mem_univ c0))
  have hS' : 0 < Real.exp (-m) * ∑ c, g c := by positivity
  simp only [hg, hg', coe_sum, ← Finset.mul_sum]
  rw [Ideal.log_coe, Ideal.log_coe, if_neg (not_le.mpr hS'), if_neg (not_le.mpr hS),
    Real.log_mul (Real.exp_pos _).ne' hS.ne', Real.log_exp]
  have hj := hne_top j
  generalize l j = x at hj ⊢
  induction x using EReal.rec with
  | bot => simp [EReal.bot_sub]
  | coe r =>
    rw [← EReal.coe_sub, ← EReal.coe_sub, ← EReal.coe_sub]
    congr 2; ring
  | top => exact absurd rfl hj

/-- The shifted log-softmax probability is the unshifted one, for every family of extended reals whose maximum
    `M` is attained. -/
theorem softmax_shift {ι : Type*} [Fintype ι] (l : ι → EReal) (M : EReal) (hub : ∀ c, l c ≤ M) (hatt : ∃ c, l c = M)
    (j : ι) :
    Ideal.exp ((l j - M) - Ideal.log (∑ c, Ideal.exp (l c - M)))
      = Ideal.exp (l j - Ideal.log (∑ c, Ideal.exp (l c))) := by
  induction M using EReal.rec with
  | bot =>
    -- every entry is `⊥`, and `⊥ - x = ⊥`: both exponents are `⊥`
    have hl : ∀ c, l c = ⊥ := fun c => le_bot_iff.mp (hub c)
    simp only [hl, EReal.bot_sub]
  | coe m => exact shift_real l m hub hatt j
  | top => exact shift_top l hatt j

end Cert.SoftmaxLaw

end
-- ==== Proof.LibIndexSums.lean ====
/-
  Sums over the index sets of rank-3 and rank-4 shapes as iterated sums over the coordinates, a sum over `Fin (a · b)`
  cut into `a` runs of `b`, and the total of an array that is zero off one entry. General facts about indices: nothing
  here mentions a program.
-/
import Idealize.ShloMosaic.Lib.ValueIdx
import Mathlib.Algebra.BigOperators.Fin
import Mathlib.Logic.Equiv.Fin.Basic

noncomputable section

namespace Cert.LibIndexSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (a · b)` is the sum over `a` runs of `b` consecutive terms: term `i` of run `q` is term `q · b + i`. -/
theorem sum_fin_mul {M : Type*} [AddCommMonoid M] (a b : Nat) (f : Fin (a * b) → M) :
    ∑ h, f h = ∑ q : Fin a, ∑ i : Fin b, f ⟨q.val * b + i.val, by
      have hq := q.isLt; have hi := i.isLt
      calc q.val * b + i.val < q.val * b + b := by omega
        _ = (q.val + 1) * b := by ring
        _ ≤ a * b := Nat.mul_le_mul_right b hq⟩ := by
  rw [← Equiv.sum_comp (finProdFinEquiv (m := a) (n := b)) f, Fintype.sum_prod_type]
  refine Finset.sum_congr rfl fun q _ => Finset.sum_congr rfl fun i _ => ?_
  congr 1
  apply Fin.ext
  simp only [finProdFinEquiv_apply_val]
  rw [Nat.mul_comm, Nat.add_comm]

/-- The total of an [n0 × n1] table that holds `s` at its first entry and zero elsewhere is `s`. -/
theorem sum_corner {M : Type*} [AddCommMonoid M] {n0 n1 : Nat} (h0 : 0 < n0) (h1 : 0 < n1) (s : M) :
    ∑ r : Fin n0, ∑ c : Fin n1, (if r.val = 0 ∧ c.val = 0 then s else 0) = s := by
  rw [Finset.sum_eq_single (⟨0, h0⟩ : Fin n0)]
  · rw [Finset.sum_eq_single (⟨0, h1⟩ : Fin n1)]
    · simp
    · intro c _ hc
      have : c.val ≠ 0 := fun e => hc (Fin.ext e)
      simp [this]
    · intro h; exact absurd (Finset.mem_univ _) h
  · intro r _ hr
    have : r.val ≠ 0 := fun e => hr (Fin.ext e)
    simp [this]
  · intro h; exact absurd (Finset.mem_univ _) h

end Cert.LibIndexSums

end
-- ==== Proof.Spec.lean ====
/-
  The function both programs compute, written once over plain index types.

  For `x : [4096, 256]`, `cen : [32768, 256]` and a label `lab b` per row: the row `x b` is divided by its Euclidean
  norm (`fhat`), its dot product with every row of `cen` is divided by the temperature (`logit`), and the result
  is the softmax probability of the labelled class, `exp (logit b (lab b) - log (∑ c, exp (logit b c)))`.

  The kernel divides the normalised row by the temperature BEFORE the dot product (`slogit`) and sums the
  exponentials tile by tile, 32 tiles of 1024 classes (`tile`, `partial`); both are the same numbers
  (`slogit_eq`, `sum_tiles`).
-/
import proofs.«423801_j14465449853585_3_alg».proof.Proof.SoftmaxLaw
import proofs.«423801_j14465449853585_3_alg».proof.Proof.LibIndexSums
import Idealize.ShloMosaic.Lib.ValueIdx

noncomputable section

namespace Cert.Spec

open Idealize.ShloMosaic

/-- The temperature: the f32 nearest 0.05. -/
abbrev kk : EReal := Ideal.ofBits .f32 0x3D4CCCCD#32

/-- Row `b`'s Euclidean norm. -/
def nrm (x : Fin 4096 → Fin 256 → EReal) (b : Fin 4096) : EReal := Ideal.sqrt (∑ d, x b d * x b d)

/-- Row `b` divided by its norm. -/
def fhat (x : Fin 4096 → Fin 256 → EReal) (b : Fin 4096) (d : Fin 256) : EReal := Ideal.div (x b d) (nrm x b)

/-- The logit of class `c` for row `b`: the dot product divided by the temperature. -/
def logit (x : Fin 4096 → Fin 256 → EReal) (cen : Fin 32768 → Fin 256 → EReal) (b : Fin 4096) (c : Fin 32768) : EReal :=
  Ideal.div (∑ d, fhat x b d * cen c d) kk

/-- The same with the division done first, on the normalised row. -/
def slogit (x : Fin 4096 → Fin 256 → EReal) (cen : Fin 32768 → Fin 256 → EReal) (b : Fin 4096) (c : Fin 32768) : EReal :=
  ∑ d, Ideal.div (fhat x b d) kk * cen c d

theorem slogit_eq (x : Fin 4096 → Fin 256 → EReal) (cen : Fin 32768 → Fin 256 → EReal) (b : Fin 4096) (c : Fin 32768) :
    slogit x cen b c = logit x cen b c := by
  obtain ⟨k, hk, e⟩ := Cert.SoftmaxLaw.temp_pos
  unfold slogit logit kk
  rw [e]
  exact Cert.SoftmaxLaw.scaled_dot _ _ hk

/-- Class `1024 j + c'`: class `c'` of tile `j`. -/
abbrev cls (j : Fin 32) (c' : Fin 1024) : Fin 32768 := ⟨j.val * 1024 + c'.val, by have := j.isLt; have := c'.isLt; omega⟩

/-- Row `2048 p + r`: row `r` of row block `p`. -/
abbrev row (p : Fin 2) (r : Fin 2048) : Fin 4096 := ⟨p.val * 2048 + r.val, by have := p.isLt; have := r.isLt; omega⟩

/-- The sum of the exponentials over tile `j`. -/
def tile (x : Fin 4096 → Fin 256 → EReal) (cen : Fin 32768 → Fin 256 → EReal) (b : Fin 4096) (j : Fin 32) : EReal :=
  ∑ c' : Fin 1024, Ideal.exp (slogit x cen b (cls j c'))

/-- The accumulator after tiles `0 … n`. -/
def partialSum (x : Fin 4096 → Fin 256 → EReal) (cen : Fin 32768 → Fin 256 → EReal) (b : Fin 4096) (n : ℕ) : EReal :=
  ∑ j : Fin 32, if j.val ≤ n then tile x cen b j else 0

/-- The log-sum-exp of row `b`'s logits. -/
def lse (x : Fin 4096 → Fin 256 → EReal) (cen : Fin 32768 → Fin 256 → EReal) (b : Fin 4096) : EReal :=
  Ideal.log (∑ c, Ideal.exp (logit x cen b c))

/-- After the last tile the accumulator is the sum over all classes. -/
theorem partialSum_last (x : Fin 4096 → Fin 256 → EReal) (cen : Fin 32768 → Fin 256 → EReal) (b : Fin 4096) :
    partialSum x cen b 31 = ∑ c, Ideal.exp (logit x cen b c) := by
  -- every tile index is at most 31, so no term is dropped
  have hall : ∀ j : Fin 32, (if j.val ≤ 31 then tile x cen b j else 0) = tile x cen b j :=
    fun j => if_pos (by have := j.isLt; omega)
  unfold partialSum
  simp only [hall]
  unfold tile
  simp only [slogit_eq]
  -- 32 runs of 1024 consecutive classes are all 32768 = 32 · 1024 classes
  exact (Cert.LibIndexSums.sum_fin_mul 32 1024 (fun c : Fin (32 * 1024) => Ideal.exp (logit x cen b c))).symm

/-- The softmax probability of the labelled class. -/
def prob (x : Fin 4096 → Fin 256 → EReal) (cen : Fin 32768 → Fin 256 → EReal) (lab : Fin 4096 → Fin 32768) (b : Fin 4096) : EReal :=
  Ideal.exp (logit x cen b (lab b) - lse x cen b)

/-- A label word read as a class: signed, clamped into the table (as a gather reads its start index). -/
def labOf (l : BitVec 32) : Fin 32768 := ⟨min l.toInt.toNat 32767, by omega⟩

end Cert.Spec

end
-- ==== Proof.LibSmallWords.lean ====
/-
  Small non-negative 32-bit words as numbers: a word whose signed value is non-negative reads the same signed and
  unsigned; the signed maximum with zero, the signed minimum with a bound, and the two together (a clip into
  `[0, hi]`) leave a word already in range alone, and bring any word into range; the wrap-around of a negative index
  leaves a non-negative word alone; the difference of two small numbers' words is their difference's word; and a
  small word used as a start index is read as itself.
-/
import Idealize.ShloMosaic.Lib.StableHlo.Predicate
import Idealize.ShloMosaic.Lib.ValueIdx

namespace Cert.Lib

open Idealize.ShloMosaic Idealize.ShloMosaic.StableHlo.Predicate

/-! ## Small non-negative 32-bit words -/

/-- A word whose signed value is non-negative is below 2³¹ and reads the same signed and unsigned. -/
theorem toNat_of_toInt_nonneg {a : BitVec 32} (h : 0 ≤ a.toInt) : a.toNat < 2 ^ 31 ∧ a.toInt = a.toNat := by
  have hlt := a.isLt
  rw [BitVec.toInt_eq_toNat_cond] at h ⊢
  split at h <;> constructor <;> omega

/-- The signed maximum of zero and a small non-negative word is the word … -/
theorem maxsi_zero_left {w : BitVec 32} (hw : w.toNat < 2 ^ 31) : IntOp.maxsi 0#32 w = w := by
  have hti : w.toInt = w.toNat := toInt_eq_toNat_of_lt hw
  have h0 : (0#32 : BitVec 32).toInt = 0 := by decide
  unfold IntOp.maxsi
  split <;> rename_i hc <;> simp only [BitVec.slt, hti, h0, decide_eq_true_eq] at hc
  · omega
  · rfl

/-- … in either order. -/
theorem maxsi_zero_right {w : BitVec 32} (hw : w.toNat < 2 ^ 31) : IntOp.maxsi w 0#32 = w := by
  have hti : w.toInt = w.toNat := toInt_eq_toNat_of_lt hw
  have h0 : (0#32 : BitVec 32).toInt = 0 := by decide
  unfold IntOp.maxsi
  split <;> rename_i hc <;> simp only [BitVec.slt, hti, h0, decide_eq_true_eq] at hc
  · rfl
  · apply BitVec.eq_of_toNat_eq; simp only [BitVec.toNat_ofNat]; omega

/-- The signed minimum of a small bound and a word at most the bound is the word. -/
theorem minsi_of_le {hi w : BitVec 32} (hhi : hi.toNat < 2 ^ 31) (hw : w.toNat ≤ hi.toNat) : IntOp.minsi hi w = w := by
  have hti : w.toInt = w.toNat := toInt_eq_toNat_of_lt (by omega)
  have hth : hi.toInt = hi.toNat := toInt_eq_toNat_of_lt hhi
  unfold IntOp.minsi
  split <;> rename_i hc <;> simp only [BitVec.slt, hti, hth, decide_eq_true_eq] at hc
  · apply BitVec.eq_of_toNat_eq; omega
  · rfl

/-- A word already in `[0, hi]` clipped into `[0, hi]` (raised to zero, then lowered to `hi`) is itself. -/
theorem clip_eval {hi w : BitVec 32} (hhi : hi.toNat < 2 ^ 31) (hw : w.toNat ≤ hi.toNat) :
    IntOp.minsi hi (IntOp.maxsi 0#32 w) = w := by
  rw [maxsi_zero_left (by omega), minsi_of_le hhi hw]

/-- The wrap-around of a negative index leaves a small non-negative word alone. -/
theorem wrap_eval (m : BitVec 32) {w : BitVec 32} (hw : w.toNat < 2 ^ 31) :
    Scalar.select (IntOp.cmpi .slt w 0#32) (IntOp.addi w m) w = w := by
  have hc : ¬ IntOp.cmpi .slt w 0#32 = 1#1 := by
    rw [slt_iff_toNat hw (by decide)]; simp
  rw [ValueIdx.eq_zero_of_ne_one hc, ValueIdx.select_zero]

/-- Any word clipped into `[0, hi]` (raised to zero, then lowered to `hi`) is at most `hi`. -/
theorem clip_le {hi : BitVec 32} (hhi : hi.toNat < 2 ^ 31) (w : BitVec 32) :
    (IntOp.minsi hi (IntOp.maxsi 0#32 w)).toNat ≤ hi.toNat := by
  have hth : hi.toInt = hi.toNat := toInt_eq_toNat_of_lt hhi
  have h0 : (0#32 : BitVec 32).toInt = 0 := by decide
  have hm : 0 ≤ (IntOp.maxsi 0#32 w).toInt := by
    unfold IntOp.maxsi
    split <;> rename_i hc <;> simp only [BitVec.slt, h0, decide_eq_true_eq] at hc
    · rw [h0]
    · omega
  generalize IntOp.maxsi 0#32 w = m at hm ⊢
  obtain ⟨hm1, hm2⟩ := toNat_of_toInt_nonneg hm
  unfold IntOp.minsi
  split <;> rename_i hc <;> simp only [BitVec.slt, hth, hm2, decide_eq_true_eq] at hc
  · exact le_refl _
  · omega

/-- The difference of two small numbers as words is the word of their difference. -/
theorem ofNat_sub_ofNat {a b : Nat} (hb : b ≤ a) (ha : a < 2 ^ 32) :
    BitVec.ofNat 32 a - BitVec.ofNat 32 b = BitVec.ofNat 32 (a - b) := by
  apply BitVec.eq_of_toNat_eq; simp only [BitVec.toNat_sub, BitVec.toNat_ofNat]; omega

/-- A number below 2³² is the value of its word. -/
theorem toNat_ofNat_lt {a : Nat} (ha : a < 2 ^ 32) : (BitVec.ofNat 32 a).toNat = a := by
  rw [BitVec.toNat_ofNat]; exact Nat.mod_eq_of_lt ha

/-- A start index that is a small word below the table's height is read as itself: signed, and clamped into the table. -/
theorem clampIdx_eq {N : Nat} (w : BitVec 32) (h : w.toNat < N) (hN : N ≤ 2 ^ 31) : min w.toInt.toNat (N - 1) = w.toNat := by
  rw [toInt_eq_toNat_of_lt (by omega)]
  simp only [Int.toNat_natCast]
  omega

end Cert.Lib
-- ==== Proof.LibColumnToVector.lean ====
/-
  A column reshaped to a vector, read at an index.
-/
import Idealize.ShloMosaic.Lib.Pipeline.Value
import Idealize.ShloMosaic.Lib.ValueIdx

noncomputable section

namespace Cert.LibColumnToVector

open Idealize.ShloMosaic Idealize.ShloMosaic.ValueIdx

/-- At any extent and element type: a column `[a, 1]` reshaped to a vector `[a]`, read at `i`, is the column's entry
    `(i, 0)` — the two row-major positions are `i · 1 + 0` and `i`. -/
theorem shapeCast_col_vec_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnToVector

end
-- ==== Proof.RefValue.lean ====
/-
  The reference's result at row b, on the extended reals, when every label is a class index: the softmax
  probability of the labelled class.

  The program normalises the rows of x, multiplies by the transposed class table, divides by the temperature,
  takes a log-softmax along the classes (subtracting the row maximum first), and reads column `labels b` of row b
  (a negative label is wrapped by 32768 and an index outside the table reads a fill value; with the label in
  range neither happens), then exponentiates. The row maximum is attained, so the shifted log-softmax is the
  unshifted one.
-/
import proofs.«423801_j14465449853585_3_alg».proof.Proof.RefRead
import proofs.«423801_j14465449853585_3_alg».proof.Proof.Spec
import proofs.«423801_j14465449853585_3_alg».proof.Proof.LibSmallWords
import proofs.«423801_j14465449853585_3_alg».proof.Proof.LibColumnToVector
import Idealize.ShloMosaic.Lib.ReduceAll
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP

/-- The normalised row: entry `(b, d)` of `x` divided by the Euclidean norm of row `b`. -/
theorem fhat_at (x0 : (⟨S4096x256, .f32⟩ : BufTy).Contents (Elt Ideal)) (b : Fin 4096) (d : Fin 256) :
    val_main_v2 (F := Ideal) x0 (ix2 b d) = Cert.Spec.fhat (fun p d => x0 (ix2 p d)) b d := by
  have hidx : ∀ k : Fin 256, idx_main_call0_v1 (idx_main_call0_v2 (idx_main_v1 (ix2 b d))) k = ix2 b k := by
    intro k; funext a; match a with | ⟨0, _⟩ => rfl | ⟨1, _⟩ => rfl
  rw [val_main_v2_apply, val_main_v1_apply, val_main_v0_apply, val_main_call0_v2_apply, val_main_call0_v1_apply,
    val_main_call0_cst_apply]
  simp only [val_main_call0_v0_apply, hidx, Ideal.hostDivf_def, Ideal.hostUnary_sqrt_def, Ideal.mulf_def,
    Ideal.ofBits_def, Ideal.ofBits_zero_f32, zero_add]
  rfl

/-- The logit of class `c` for row `b`: the normalised row's dot product with row `c` of the class table (column `c`
    of its transpose), divided by the temperature. -/
theorem logit_at (x0 : (⟨S4096x256, .f32⟩ : BufTy).Contents (Elt Ideal)) (x1 : (⟨S32768x256, .f32⟩ : BufTy).Contents (Elt Ideal))
    (b : Fin 4096) (c : Fin 32768) :
    val_main_v6 (F := Ideal) x0 x1 (ix2 b c)
      = Cert.Spec.logit (fun p d => x0 (ix2 p d)) (fun k d => x1 (ix2 k d)) b c := by
  have hl : ∀ k : Fin 256, lidx_main_v4 (ix2 b c) k = ix2 b k := by
    intro k; funext a; match a with | ⟨0, _⟩ => rfl | ⟨1, _⟩ => rfl
  have hr : ∀ k : Fin 256, idx_main_v3 (ridx_main_v4 (ix2 b c) k) = ix2 c k := by
    intro k; funext a; match a with | ⟨0, _⟩ => rfl | ⟨1, _⟩ => rfl
  rw [val_main_v6_apply, val_main_v4_apply, val_main_v5_apply, val_main_cst_apply]
  simp only [val_main_v3_apply, hl, hr, fhat_at, Ideal.hostDivf_def, Ideal.ofBits_def]
  rfl

/-- The pattern `0xFF800000` denotes `-∞`. -/
theorem neg_inf : Ideal.ofBits .f32 0xFF800000#32 = ⊥ := by simp [Ideal.ofBits, Ideal.ieee]

/-- The largest logit of row `b`: the maximum over the classes, taken from `-∞`. -/
def rowMax (x0 : (⟨S4096x256, .f32⟩ : BufTy).Contents (Elt Ideal)) (x1 : (⟨S32768x256, .f32⟩ : BufTy).Contents (Elt Ideal))
    (b : Fin 4096) : EReal :=
  (Finset.univ : Finset (Fin 32768)).fold max ⊥
    (fun c => Cert.Spec.logit (fun p d => x0 (ix2 p d)) (fun k d => x1 (ix2 k d)) b c)

/-- The program's row maximum (`max` of `-∞` and the reduction over the class axis from `-∞`) is that maximum. -/
theorem rowMax_at (x0 : (⟨S4096x256, .f32⟩ : BufTy).Contents (Elt Ideal)) (x1 : (⟨S32768x256, .f32⟩ : BufTy).Contents (Elt Ideal))
    (b : Fin 4096) : val_main_call1_v2 (F := Ideal) x0 x1 (ix1 b) = rowMax x0 x1 b := by
  have hR : S4096x32768.Reduces [1] S4096 := by decide
  have hlift : ∀ k : Fin 32768, hR.lift (ix1 b) k = ix2 b k := by
    intro k; funext a; match a with | ⟨0, _⟩ => exact Fin.ext rfl | ⟨1, _⟩ => exact Fin.ext rfl
  rw [val_main_call1_v2_apply, val_main_call1_v1_apply, val_main_call1_cst_0_apply]
  unfold val_main_call1_v0
  rw [Host.reduce_eq_fold_single FloatOps.maximumf _ _ reducesTo_S4096x32768_S4096_d1 hR h_S_, val_main_call1_cst_apply]
  simp only [Ideal.ofBits_def, neg_inf, Ideal.maximumf_def, bot_le, max_eq_right]
  unfold rowMax
  refine Finset.fold_congr (fun k _ => ?_)
  show val_main_v6 (F := Ideal) x0 x1 (hR.lift (ix1 b) k) = _
  rw [hlift k]
  exact logit_at x0 x1 b k

/-- Every logit of the row is at most the row's maximum … -/
theorem le_rowMax (x0 : (⟨S4096x256, .f32⟩ : BufTy).Contents (Elt Ideal)) (x1 : (⟨S32768x256, .f32⟩ : BufTy).Contents (Elt Ideal))
    (b : Fin 4096) (c : Fin 32768) :
    Cert.Spec.logit (fun p d => x0 (ix2 p d)) (fun k d => x1 (ix2 k d)) b c ≤ rowMax x0 x1 b :=
  (Finset.le_fold_max _).2 (Or.inr ⟨c, Finset.mem_univ c, le_rfl⟩)

/-- … and one of them is the maximum: a largest logit exists among the finitely many, and the fold from `-∞` is at
    most it. -/
theorem rowMax_attained (x0 : (⟨S4096x256, .f32⟩ : BufTy).Contents (Elt Ideal)) (x1 : (⟨S32768x256, .f32⟩ : BufTy).Contents (Elt Ideal))
    (b : Fin 4096) :
    ∃ c : Fin 32768, Cert.Spec.logit (fun p d => x0 (ix2 p d)) (fun k d => x1 (ix2 k d)) b c = rowMax x0 x1 b := by
  obtain ⟨c0, _, hmax⟩ := Finset.exists_max_image (Finset.univ : Finset (Fin 32768))
    (fun c => Cert.Spec.logit (fun p d => x0 (ix2 p d)) (fun k d => x1 (ix2 k d)) b c) ⟨0, Finset.mem_univ _⟩
  exact ⟨c0, le_antisymm (le_rowMax x0 x1 b c0) ((Finset.fold_max_le _).2 ⟨bot_le, fun c hc => hmax c hc⟩)⟩

/-- The shifted logit: class `c`'s logit less the row maximum. -/
theorem shifted_at (x0 : (⟨S4096x256, .f32⟩ : BufTy).Contents (Elt Ideal)) (x1 : (⟨S32768x256, .f32⟩ : BufTy).Contents (Elt Ideal))
    (b : Fin 4096) (c : Fin 32768) :
    val_main_call1_v5 (F := Ideal) x0 x1 (ix2 b c)
      = Cert.Spec.logit (fun p d => x0 (ix2 p d)) (fun k d => x1 (ix2 k d)) b c - rowMax x0 x1 b := by
  have hidx : idx_main_call1_v3 (idx_main_call1_v4 (ix2 b c)) = ix1 b := by
    funext a; match a with | ⟨0, _⟩ => rfl
  rw [val_main_call1_v5_apply, val_main_call1_v4_apply, val_main_call1_v3_apply, hidx, rowMax_at, logit_at]
  rfl

/-- The log-softmax at `(b, c)`: the shifted logit less the logarithm of the sum of the exponentials of the row's
    shifted logits (the sum starts from the zero pattern's `0`). -/
theorem logsoftmax_at (x0 : (⟨S4096x256, .f32⟩ : BufTy).Contents (Elt Ideal)) (x1 : (⟨S32768x256, .f32⟩ : BufTy).Contents (Elt Ideal))
    (b : Fin 4096) (c : Fin 32768) :
    val_main_v7 (F := Ideal) x0 x1 (ix2 b c)
      = (Cert.Spec.logit (fun p d => x0 (ix2 p d)) (fun k d => x1 (ix2 k d)) b c - rowMax x0 x1 b)
        - Ideal.log (∑ c' : Fin 32768,
            Ideal.exp (Cert.Spec.logit (fun p d => x0 (ix2 p d)) (fun k d => x1 (ix2 k d)) b c' - rowMax x0 x1 b)) := by
  have h1 : idx_main_call1_v8 (idx_main_call1_v10 (ix2 b c)) = ix1 b := by
    funext a; match a with | ⟨0, _⟩ => rfl
  have h2 : ∀ k : Fin 32768, idx_main_call1_v7 (ix1 b) k = ix2 b k := by
    intro k; funext a; match a with | ⟨0, _⟩ => rfl | ⟨1, _⟩ => rfl
  rw [val_main_v7_apply, val_main_call1_v10_apply, val_main_call1_v9_apply, val_main_call1_v8_apply, h1,
    val_main_call1_v7_apply, val_main_call1_cst_1_apply]
  simp only [val_main_call1_v6_apply, h2, shifted_at, Ideal.subf_def, Ideal.hostUnary_log_def, Ideal.hostUnary_exp_def,
    Ideal.ofBits_def, Ideal.ofBits_zero_f32, zero_add]

/-- The start index the lookup reads at `(p, 0, 0)`: the label of row `p`; a label that is not negative is not
    wrapped by the table's height. -/
theorem start_word (x2 : (⟨S4096, .i32⟩ : BufTy).Contents (Elt Ideal))
    (hlab : ∀ b : Fin 4096, 0 ≤ (x2 (ix1 b)).toInt ∧ (x2 (ix1 b)).toInt < 32768) (i : S4096x1x1.Idx) :
    val_main_call2_v5 (F := Ideal) x2 i = x2 (ix1 (n := 4096) (i 0)) := by
  have h1 : (i 1).val < 1 := (i 1).isLt
  have h2 : (i 2).val < 1 := (i 2).isLt
  have hidx : idx_main_call2_v5 i = ix2 (n0 := 4096) (n1 := 1) (i 0) 0 := by
    funext a
    match a with
    | ⟨0, _⟩ => exact Fin.ext (show (((i 0).val * 1 + (i 1).val) * 1 + (i 2).val) / 1 = (i 0).val by omega)
    | ⟨1, _⟩ => rfl
  have h8 : idx_main_v8 (ix2 (n0 := 4096) (n1 := 1) (i 0) 0) = ix1 (n := 4096) (i 0) := by
    funext a; match a with | ⟨0, _⟩ => rfl
  rw [val_main_call2_v5_apply, hidx, val_main_call2_v4_apply, val_main_call2_v1_apply, val_main_call2_v3_apply,
    val_main_call2_v0_apply, val_main_call2_c_apply, val_main_call2_v2_apply, val_main_call2_c_0_apply, val_main_v8_apply, h8]
  exact Cert.Lib.wrap_eval 32768#32 (Cert.Lib.toNat_of_toInt_nonneg (hlab (i 0)).1).1

/-- Every entry of the in-range mask's operand is set: the start index is at least 0 and at most 32767. -/
theorem inrange_word (x2 : (⟨S4096, .i32⟩ : BufTy).Contents (Elt Ideal))
    (hlab : ∀ b : Fin 4096, 0 ≤ (x2 (ix1 b)).toInt ∧ (x2 (ix1 b)).toInt < 32768) (i : S4096x1x1.Idx) :
    val_main_call2_v11 (F := Ideal) x2 i = 1#1 := by
  have h0 : (0#32 : BitVec 32).toInt = 0 := by decide
  have hhi : (32767#32 : BitVec 32).toInt = 32767 := by decide
  obtain ⟨hlo, hup⟩ := hlab (i 0)
  rw [val_main_call2_v11_apply, IntOp.andi_eq_one]
  constructor
  · rw [val_main_call2_v7_apply, val_main_call2_v6_apply, val_main_call2_c_2_apply, start_word x2 hlab, IntOp.cmpi_sge, h0]
    exact hlo
  · rw [val_main_call2_v10_apply, val_main_call2_v9_apply, val_main_call2_v8_apply, val_main_call2_c_1_apply,
      start_word x2 hlab, IntOp.cmpi_sle, hhi]
    omega

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_ones f l fun n hn => h n (List.mem_cons_of_mem a hn)

/-- The in-range mask (the `and` over the unit axis, from 1) is set at every row. -/
theorem mask_one (x2 : (⟨S4096, .i32⟩ : BufTy).Contents (Elt Ideal))
    (hlab : ∀ b : Fin 4096, 0 ≤ (x2 (ix1 b)).toInt ∧ (x2 (ix1 b)).toInt < 32768) (j : S4096x1.Idx) :
    val_main_call2_v12 (F := Ideal) x2 j = 1#1 := by
  unfold val_main_call2_v12
  rw [Host.reduce_eq_foldl, val_main_call2_c_3_apply]
  exact foldl_andi_ones _ _ fun n _ => inrange_word x2 hlab n

/-- On the batch axis of the log-softmax table (axis 0): the result's row; no start index and no offset. -/
theorem take_coord_0 {w : Nat} (idx : IVec S4096x1x1 w) (b : Fin 4096) :
    gather_S4096x32768_S4096x1x1_S4096x1_n_1_0_0_1_2_11.start (ix2 b (0 : Fin 1)) idx (0 : Fin 2)
      + gather_S4096x32768_S4096x1x1_S4096x1_n_1_0_0_1_2_11.batchCoord (ix2 b (0 : Fin 1)) (0 : Fin 2)
      + gather_S4096x32768_S4096x1x1_S4096x1_n_1_0_0_1_2_11.offCoord (ix2 b (0 : Fin 1)) (0 : Fin 2) = b.val := by
  have hob : (0 : Fin 2) ∈ gather_S4096x32768_S4096x1x1_S4096x1_n_1_0_0_1_2_11.operandBatchingDims :=
    show (0 : Fin 2) ∈ [(0 : Fin 2)] from by decide
  rw [GatherDims.start_batching _ _ _ _ hob,
    GatherDims.offCoord_eq_zero _ _ _ (fun hm => ((GatherDims.mem_sKept _ _).mp hm).2 hob)]
  unfold GatherDims.batchCoord
  rw [dif_pos hob]
  show 0 + b.val + 0 = b.val
  omega

/-- On the class axis (axis 1, collapsed): the start index at `(b, 0, 0)` read signed and clamped into the table; no
    batch and no offset coordinate. -/
theorem take_coord_1 {w : Nat} (idx : IVec S4096x1x1 w) (b : Fin 4096) :
    gather_S4096x32768_S4096x1x1_S4096x1_n_1_0_0_1_2_11.start (ix2 b (0 : Fin 1)) idx (1 : Fin 2)
      + gather_S4096x32768_S4096x1x1_S4096x1_n_1_0_0_1_2_11.batchCoord (ix2 b (0 : Fin 1)) (1 : Fin 2)
      + gather_S4096x32768_S4096x1x1_S4096x1_n_1_0_0_1_2_11.offCoord (ix2 b (0 : Fin 1)) (1 : Fin 2)
      = min (idx (ix3 b (0 : Fin 1) (0 : Fin 1))).toInt.toNat 32767 := by
  have hcol : (1 : Fin 2) ∈ gather_S4096x32768_S4096x1x1_S4096x1_n_1_0_0_1_2_11.collapsedSliceDims :=
    show (1 : Fin 2) ∈ [(1 : Fin 2)] from by decide
  have hsim : (1 : Fin 2) ∈ gather_S4096x32768_S4096x1x1_S4096x1_n_1_0_0_1_2_11.startIndexMap :=
    show (1 : Fin 2) ∈ [(1 : Fin 2)] from by decide
  have hnb : (1 : Fin 2) ∉ gather_S4096x32768_S4096x1x1_S4096x1_n_1_0_0_1_2_11.operandBatchingDims :=
    show (1 : Fin 2) ∉ [(0 : Fin 2)] from by decide
  rw [GatherDims.batchCoord_eq_zero _ _ _ hnb,
    GatherDims.offCoord_eq_zero _ _ _ (fun hm => ((GatherDims.mem_sKept _ _).mp hm).1 hcol)]
  unfold GatherDims.start
  rw [dif_pos hsim]
  have hsi : gather_S4096x32768_S4096x1x1_S4096x1_n_1_0_0_1_2_11.siIdx (ix2 b (0 : Fin 1))
      ⟨List.idxOf (1 : Fin 2) gather_S4096x32768_S4096x1x1_S4096x1_n_1_0_0_1_2_11.startIndexMap,
        List.idxOf_lt_length_iff.2 hsim⟩ = ix3 b (0 : Fin 1) (0 : Fin 1) := by
    funext c; refine Fin.ext ?_
    match c with
    | ⟨0, _⟩ => rfl
    | ⟨1, _⟩ => rfl
    | ⟨2, _⟩ => rfl
  rw [hsi]
  show min (idx (ix3 b (0 : Fin 1) (0 : Fin 1))).toInt.toNat (32768 - 1) + 0 + 0 = _
  omega

/-- The lookup at row `b` reads the log-softmax table at `(b, j)`, `j` the row's label read signed and clamped into the
    table: the batch axis carries the row, the collapsed class axis the start index. -/
theorem take_at (x0 : (⟨S4096x256, .f32⟩ : BufTy).Contents (Elt Ideal)) (x1 : (⟨S32768x256, .f32⟩ : BufTy).Contents (Elt Ideal))
    (x2 : (⟨S4096, .i32⟩ : BufTy).Contents (Elt Ideal))
    (hlab : ∀ b : Fin 4096, 0 ≤ (x2 (ix1 b)).toInt ∧ (x2 (ix1 b)).toInt < 32768) (b : Fin 4096) :
    val_main_call2_v13 (F := Ideal) x0 x1 x2 (ix2 b (0 : Fin 1))
      = val_main_v7 (F := Ideal) x0 x1 (ix2 b (Cert.Spec.labOf (x2 (ix1 b)))) := by
  unfold val_main_call2_v13 Host.gather
  refine congrArg (val_main_v7 (F := Ideal) x0 x1) (funext fun a => Fin.ext ?_)
  match a with
  | ⟨0, _⟩ => exact take_coord_0 _ b
  | ⟨1, _⟩ =>
    refine (take_coord_1 _ b).trans ?_
    rw [start_word x2 hlab]
    rfl

/-- With the mask set the select takes the looked-up value. -/
theorem picked_at (x0 : (⟨S4096x256, .f32⟩ : BufTy).Contents (Elt Ideal)) (x1 : (⟨S32768x256, .f32⟩ : BufTy).Contents (Elt Ideal))
    (x2 : (⟨S4096, .i32⟩ : BufTy).Contents (Elt Ideal))
    (hlab : ∀ b : Fin 4096, 0 ≤ (x2 (ix1 b)).toInt ∧ (x2 (ix1 b)).toInt < 32768) (b : Fin 4096) :
    val_main_v9 (F := Ideal) x0 x1 x2 (ix2 b (0 : Fin 1))
      = val_main_v7 (F := Ideal) x0 x1 (ix2 b (Cert.Spec.labOf (x2 (ix1 b)))) := by
  rw [val_main_v9_apply, mask_one x2 hlab, ValueIdx.select_one, take_at x0 x1 x2 hlab b]

/-- The last stage at row b. -/
theorem value_at (x0 : (⟨S4096x256, .f32⟩ : BufTy).Contents (Elt Ideal)) (x1 : (⟨S32768x256, .f32⟩ : BufTy).Contents (Elt Ideal))
    (x2 : (⟨S4096, .i32⟩ : BufTy).Contents (Elt Ideal))
    (hlab : ∀ b : Fin 4096, 0 ≤ (x2 (ix1 b)).toInt ∧ (x2 (ix1 b)).toInt < 32768) (b : Fin 4096) :
    val_main_v11 (F := Ideal) x0 x1 x2 (ix1 b)
      = Cert.Spec.prob (fun p d => x0 (ix2 p d)) (fun k d => x1 (ix2 k d)) (fun p => Cert.Spec.labOf (x2 (ix1 p))) b := by
  have hidx : idx_main_v10 (ix1 b) = ix2 b (0 : Fin 1) := by
    funext a; match a with | ⟨0, _⟩ => exact Fin.ext (Nat.div_one _) | ⟨1, _⟩ => rfl
  rw [val_main_v11_apply, val_main_v10_apply, hidx, picked_at x0 x1 x2 hlab b, logsoftmax_at, Ideal.hostUnary_exp_def]
  unfold Cert.Spec.prob Cert.Spec.lse
  -- the row maximum bounds every logit and is one of them, so the shift by it drops out of the softmax
  exact Cert.SoftmaxLaw.softmax_shift _ _ (le_rowMax x0 x1 b) (rowMax_attained x0 x1 b) _

end Cert.ReferenceIdeal.RefValue

end
-- ==== Proof.PreRange.lean ====
/-
  What the precondition says of the labels: each is a class index, 0 ≤ label < 32768.

  The precondition is a conjunction of three whole-array tests reduced by "and": every entry of x is finite, every
  entry of the class table is finite, and every label satisfies (label ≥ 0) and (label < 32768) as signed words.
  Only the last conjunct is read here.
-/
import proofs.«423801_j14465449853585_3_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx
open Cert.Pre_finite_inputs

/-- A shape of rank 0 has exactly one index: two indices are functions out of the empty set of axes. -/
theorem scalarIdx_subsingleton : Subsingleton S_.Idx := ⟨fun _ _ => funext fun d => d.elim0⟩

/-- The two signed bounds, as integers: the word 0 reads 0 and the word 32768 reads 32768 (it is below 2³¹). -/
theorem toInt_zero32 : (0#32 : BitVec 32).toInt = 0 := by decide
theorem toInt_classes32 : (32768#32 : BitVec 32).toInt = 32768 := by decide

/-- The third conjunct, read at one label. The precondition's value is an "and" of three scalars, so the third,
    the "and" over all labels of (label ≥ 0) ∧ (label < 32768), is 1; an "and" over all positions that is 1 met a 1 at
    every position; and the bound each compare is taken against is a scalar constant laid along the axis, so at
    position b it is that constant. -/
theorem label_tests [Cert.Pre_finite_inputs.Facts] {F : FTy → Type} [FloatOps F]
    (x0 : FVec F S4096x256 .f32) (x1 : FVec F S32768x256 .f32) (x2 : IVec S4096 32)
    (h : Cert.Pre_finite_inputs.fn (F := F) x0 x1 x2 = fun _ => 1#1) (b : Fin 4096) :
    IntOp.cmpi .sge (x2 (ix1 b)) 0#32 = 1#1 ∧ IntOp.cmpi .slt (x2 (ix1 b)) 32768#32 = 1#1 := by
  have h0 := congrFun h ValueIdx.ix0
  dsimp only [Cert.Pre_finite_inputs.fn] at h0
  -- the outer "and" is pointwise on the one scalar index; its right operand is the labels' conjunct
  have hlabels := (IntOp.andi_eq_one.1 h0).2
  -- every entry of the reduced array is 1, in particular the one at b; it is itself an "and" of the two compares
  haveI := scalarIdx_subsingleton
  exact IntOp.andi_eq_one.1 (Host.reduce_andi_all _ _ _ _ _ hlabels (ix1 b))

/-- If the precondition holds of (x, table, labels) then every label is a class index. -/
theorem labels_in_range [Cert.Pre_finite_inputs.Facts] {F : FTy → Type} [FloatOps F]
    (x0 : FVec F S4096x256 .f32) (x1 : FVec F S32768x256 .f32) (x2 : IVec S4096 32)
    (h : Cert.Pre_finite_inputs.fn (F := F) x0 x1 x2 = fun _ => 1#1) (b : Fin 4096) :
    0 ≤ (x2 (ix1 b)).toInt ∧ (x2 (ix1 b)).toInt < 32768 := by
  obtain ⟨hge, hlt⟩ := label_tests x0 x1 x2 h b
  -- a signed compare that came out 1 is the inequality of the two words read as signed integers
  rw [IntOp.cmpi_sge, toInt_zero32] at hge
  rw [IntOp.cmpi_slt, toInt_classes32] at hlt
  exact ⟨hge, hlt⟩

end Cert.PreRange

end
-- ==== Proof.KPieces.lean ====
/-
  What each control case of the kernel body leaves in the two scratch buffers it carries between grid points and
  in the output block, as pure functions of what the case loads.

  The body has three cases by the tile index j of the grid point: the first tile (j = 0), a middle tile, and the
  last tile (j = 31). At the first tile the normalised, temperature-scaled row block is stored to the first scratch
  and the accumulator (second scratch) is zeroed and then increased by this tile's sum of exponentials; at every
  other tile the first scratch is kept and the accumulator is increased; at the last tile the output block is
  the logarithm of the accumulator just stored.
-/
import proofs.«423801_j14465449853585_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The zero offsets of a rank-two rectangle, in the two spellings the pieces and the library use. -/
private theorem hz : (![0, 0] : Fin 2 → Nat) = fun _ => 0 := funext fun a => by fin_cases a <;> rfl

/-- First tile: the first scratch ends at the scaled normalised row block. -/
theorem scaled_A (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x256 .bf16) (h5 : a5.IsWhole) (a6 : Memref sig .tc .vmem S2048x1 .f32) (h6 : a6.IsWhole) (hc0 : cond0_0 i) (hc1 : ¬cond0_1 i)
    (x0 : Vec F S2048x256 .f32) (x1 : Vec F S1024x256 .f32) :
    sout0_A_0 c i a2 h2 a3 h3 a4 h4 a5 h5 a6 h6 hc0 hc1 x0 x1 = k0_pay1 x0 := by
  -- one store covers the first scratch; its payload is computed from the load of the whole input block
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_unit_zero hz]
  simp only [View.readAt_eq_ld, h2.read_unread, View.ld_unit_zero (S := S2048x256) hz]

/-- First tile: the accumulator ends at zero plus this tile's sum, the scaled rows being the ones just stored. -/
theorem acc_A (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x256 .bf16) (h5 : a5.IsWhole) (a6 : Memref sig .tc .vmem S2048x1 .f32) (h6 : a6.IsWhole) (hc0 : cond0_0 i) (hc1 : ¬cond0_1 i)
    (x0 : Vec F S2048x256 .f32) (x1 : Vec F S1024x256 .f32) :
    sout0_A_1 c i a2 h2 a3 h3 a4 h4 a5 h5 a6 h6 hc0 hc1 x0 x1 = k0_pay3 x1 (k0_pay1 x0) (k0_pay2 (F := F)) := by
  -- two stores, the later (the update) covering the earlier (the reset); the update's loads of the two scratch
  -- buffers read back the single stores this same case made just before: the scaled rows and the zero block
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S2048x1) hz]
  simp only [View.readAt_eq_ld, h2.read_unread, h3.read_unread, View.readCov_unit_zero (S := S2048x256) _ hz,
    View.readCov_unit_zero (S := S2048x1) _ hz, View.ld_unit_zero (S := S2048x256) hz,
    View.ld_unit_zero (S := S1024x256) hz]

/-- A middle tile: the accumulator ends at what it held plus this tile's sum. -/
theorem acc_B (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x256 .bf16) (h5 : a5.IsWhole) (a6 : Memref sig .tc .vmem S2048x1 .f32) (h6 : a6.IsWhole) (hc0 : ¬cond0_0 i) (hc1 : ¬cond0_1 i)
    (x0 : Vec F S2048x256 .f32) (x1 : Vec F S1024x256 .f32) (xs0 : Vec F S2048x256 .bf16) (xs1 : Vec F S2048x1 .f32) :
    sout0_B_1 c i a2 h2 a3 h3 a4 h4 a5 h5 a6 h6 hc0 hc1 x0 x1 xs0 xs1 = k0_pay3 x1 xs0 xs1 := by
  -- one covering store; its three loads read whole buffers holding the tile and the carried scratch contents
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero (S := S2048x1) hz]
  simp only [View.readAt_eq_ld, h3.read_unread, h5.read_unread, h6.read_unread, View.ld_unit_zero (S := S1024x256) hz,
    View.ld_unit_zero (S := S2048x256) hz, View.ld_unit_zero (S := S2048x1) hz]

/-- The last tile: the accumulator likewise, -/
theorem acc_C (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x256 .bf16) (h5 : a5.IsWhole) (a6 : Memref sig .tc .vmem S2048x1 .f32) (h6 : a6.IsWhole) (hc0 : ¬cond0_0 i) (hc1 : cond0_1 i)
    (x0 : Vec F S2048x256 .f32) (x1 : Vec F S1024x256 .f32) (xs0 : Vec F S2048x256 .bf16) (xs1 : Vec F S2048x1 .f32) :
    sout0_C_1 c i a2 h2 a3 h3 a4 h4 a5 h5 a6 h6 hc0 hc1 x0 x1 xs0 xs1 = k0_pay3 x1 xs0 xs1 := by
  -- as at a middle tile
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero (S := S2048x1) hz]
  simp only [View.readAt_eq_ld, h3.read_unread, h5.read_unread, h6.read_unread, View.ld_unit_zero (S := S1024x256) hz,
    View.ld_unit_zero (S := S2048x256) hz, View.ld_unit_zero (S := S2048x1) hz]

/-- and the output block is the logarithm of that accumulator. -/
theorem out_C (c : Dev nD) (i : grid0.Coords) (a2 : Memref sig .tc .vmem S2048x256 .f32) (h2 : a2.IsWhole) (a3 : Memref sig .tc .vmem S1024x256 .f32) (h3 : a3.IsWhole) (a4 : Memref sig .tc .vmem S2048x1 .f32) (h4 : a4.IsWhole) (a5 : Memref sig .tc .vmem S2048x256 .bf16) (h5 : a5.IsWhole) (a6 : Memref sig .tc .vmem S2048x1 .f32) (h6 : a6.IsWhole) (hc0 : ¬cond0_0 i) (hc1 : cond0_1 i)
    (x0 : Vec F S2048x256 .f32) (x1 : Vec F S1024x256 .f32) (xs0 : Vec F S2048x256 .bf16) (xs1 : Vec F S2048x1 .f32) :
    out0_C_2 c i a2 h2 a3 h3 a4 h4 a5 h5 a6 h6 hc0 hc1 x0 x1 xs0 xs1 = k0_pay4 (k0_pay3 x1 xs0 xs1) := by
  -- one covering store into the output block; its load of the accumulator reads back the update stored just before
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero (S := S2048x1) hz]
  simp only [View.readAt_eq_ld, h3.read_unread, h5.read_unread, h6.read_unread, View.readCov_unit_zero (S := S2048x1) _ hz,
    View.ld_unit_zero (S := S1024x256) hz, View.ld_unit_zero (S := S2048x256) hz, View.ld_unit_zero (S := S2048x1) hz]

end Cert.KernelIdeal.Pieces

end
-- ==== Proof.LibColumnLayout.lean ====
/-
  Two reads of column layouts at an index, at any extents and any element type.

  A vector of length a viewed as a column [a, 1] has, at (i, u), the vector's entry i: the row-major position of (i, u)
  in [a, 1] is i · 1 + u with u = 0, which is the position of i in [a].
  A column [a, 1] broadcast across [a, b] has, at (p, c), the column's entry (p, 0): the broadcast keeps the coordinate
  on an axis of the same extent and reads 0 on an axis of extent one.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ColumnLayout
-- ==== Proof.KPayload.lean ====
/-
  The kernel body's four stored values read at an index, on the extended reals.

  Row r of the scaled block is the row of the input block divided by its Euclidean norm and then by the
  temperature; the accumulator update at row r adds, over the 1024 classes of the tile, the exponential of the dot
  product of the scaled row with the class's row; the reset is zero; the output is the logarithm.
-/
import proofs.«423801_j14465449853585_3_alg».proof.Proof.Gen.KernelIdeal.Skeleton
import proofs.«423801_j14465449853585_3_alg».proof.Proof.Spec
import proofs.«423801_j14465449853585_3_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen

/-! ## The operations that are not pointwise, each read at an index -/

/-- The sum of squares of row r: the reduction over axis 1 of the squared block, read at r. -/
theorem sumsq_apply (x0 : FVec Ideal S2048x256 .f32) (r : Fin 2048) :
    multiReduction (F := Ideal) .add [1] S2048 (mulf x0 x0) 0x00000000#32 reduces_S2048x256_S2048 (.inl rfl) rfl (ix1 r)
      = ∑ d' : Fin 256, x0 (ix2 r d') * x0 (ix2 r d') := by
  have h1 := Ideal.multiReduction_add_single (φ := .f32) (a := (1 : Fin 2)) (mulf x0 x0) 0x00000000#32
    reduces_S2048x256_S2048 (.inl rfl) rfl (ix1 r)
  refine h1.trans ?_
  show ∑ k : Fin 256, mulf x0 x0 (reduces_S2048x256_S2048.lift (ix1 r) k) = _
  refine Finset.sum_congr rfl fun k _ => ?_
  -- the index with k put back on axis 1 is (r, k)
  have e : reduces_S2048x256_S2048.lift (ix1 r) k = ix2 r k :=
    funext fun a => Fin.ext (by match a with | ⟨0, _⟩ => rfl | ⟨1, _⟩ => rfl)
  rw [e]
  rfl

/-- The reduction over axis 1 of a [2048, 1024] block, read at r: the sum of row r. -/
theorem rowsum_apply (m : FVec Ideal S2048x1024 .f32) (r : Fin 2048) :
    multiReduction (F := Ideal) .add [1] S2048 m 0x00000000#32 reduces_S2048x1024_S2048 (.inl rfl) rfl (ix1 r)
      = ∑ c' : Fin 1024, m (ix2 r c') := by
  have h1 := Ideal.multiReduction_add_single (φ := .f32) (a := (1 : Fin 2)) m 0x00000000#32
    reduces_S2048x1024_S2048 (.inl rfl) rfl (ix1 r)
  refine h1.trans ?_
  show ∑ k : Fin 1024, m (reduces_S2048x1024_S2048.lift (ix1 r) k) = _
  refine Finset.sum_congr rfl fun k _ => ?_
  -- the index with k put back on axis 1 is (r, k)
  exact congrArg m (funext fun a => Fin.ext (by match a with | ⟨0, _⟩ => rfl | ⟨1, _⟩ => rfl))

/-- The left operand's index of the product: on its kept axis 0 the output's row. -/
theorem dot_lhs_axis0 (j : S2048x1024.Idx) (q : dot_S2048x256_S1024x256_S2048x1024_1_1_0_0_n_n.contr.Idx) :
    (dot_S2048x256_S1024x256_S2048x1024_1_1_0_0_n_n.lhsIdx j q 0).val = (j 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl

/-- On its contracted axis 1 the contraction position. -/
theorem dot_lhs_axis1 (j : S2048x1024.Idx) (q : dot_S2048x256_S1024x256_S2048x1024_1_1_0_0_n_n.contr.Idx) :
    (dot_S2048x256_S1024x256_S2048x1024_1_1_0_0_n_n.lhsIdx j q 1).val = (q ⟨0, by decide⟩).val :=
  dot_S2048x256_S1024x256_S2048x1024_1_1_0_0_n_n.lhsIdx_val_of_single rfl j q

/-- The right operand's index: on its kept axis 0 the output's column. -/
theorem dot_rhs_axis0 (j : S2048x1024.Idx) (q : dot_S2048x256_S1024x256_S2048x1024_1_1_0_0_n_n.contr.Idx) :
    (dot_S2048x256_S1024x256_S2048x1024_1_1_0_0_n_n.rhsIdx j q 0).val = (j 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl

/-- On its contracted axis 1 the contraction position. -/
theorem dot_rhs_axis1 (j : S2048x1024.Idx) (q : dot_S2048x256_S1024x256_S2048x1024_1_1_0_0_n_n.contr.Idx) :
    (dot_S2048x256_S1024x256_S2048x1024_1_1_0_0_n_n.rhsIdx j q 1).val = (q ⟨0, by decide⟩).val :=
  dot_S2048x256_S1024x256_S2048x1024_1_1_0_0_n_n.rhsIdx_val_of_single rfl j q

/-- The product into a zero accumulator at (r, c'): the dot product of row r of the left operand with row c' of the
    right one, both contracted along their axis 1. -/
theorem dot_apply (a : FVec Ideal S2048x256 .bf16) (w : FVec Ideal S1024x256 .bf16) (r : Fin 2048) (c' : Fin 1024) :
    matmul dot_S2048x256_S1024x256_S2048x1024_1_1_0_0_n_n none a w (constant (F := Ideal) S2048x1024 .f32 0x00000000#32) (ix2 r c')
      = ∑ d : Fin 256, a (ix2 r d) * w (ix2 c' d) := by
  refine (Ideal.matmul_constant_zero_apply dot_S2048x256_S1024x256_S2048x1024_1_1_0_0_n_n none a w (ix2 r c')).trans ?_
  rw [← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 r c')
      ((contrEquiv1 dot_S2048x256_S1024x256_S2048x1024_1_1_0_0_n_n 256 rfl rfl).symm k) = ix2 r k :=
    funext fun ax => Fin.ext (by
      match ax with
      | ⟨0, _⟩ => exact dot_lhs_axis0 _ _
      | ⟨1, _⟩ => exact (dot_lhs_axis1 _ _).trans hk)
  have er : dot_S2048x256_S1024x256_S2048x1024_1_1_0_0_n_n.rhsIdx (ix2 r c')
      ((contrEquiv1 dot_S2048x256_S1024x256_S2048x1024_1_1_0_0_n_n 256 rfl rfl).symm k) = ix2 c' k :=
    funext fun ax => Fin.ext (by
      match ax with
      | ⟨0, _⟩ => exact dot_rhs_axis0 _ _
      | ⟨1, _⟩ => exact (dot_rhs_axis1 _ _).trans hk)
  rw [el, er]

/-! ## The four payloads -/

/-- The scaled normalised block at (r, d). -/
theorem scaled_apply (x0 : FVec Ideal S2048x256 .f32) (r : Fin 2048) (d : Fin 256) :
    (k0_pay1 (F := Ideal) x0) (ix2 r d)
      = Ideal.div (Ideal.div (x0 (ix2 r d)) (Ideal.sqrt (∑ d' : Fin 256, x0 (ix2 r d') * x0 (ix2 r d')))) Cert.Spec.kk := by
  unfold k0_pay1
  -- the cast of a shape to itself is the identity; the format change and the two divisions are pointwise, and the
  -- temperature's splat reads the temperature
  refine (congrFun (shapeCast_self _ shapeCasts_S2048x256_S2048x256) (ix2 r d)).trans ?_
  refine congrArg (fun t => Ideal.div (Ideal.div (x0 (ix2 r d)) t) Cert.Spec.kk) ?_
  -- the divisor: the norm column broadcast along the row, the square root pointwise, the column the row sums' vector
  refine (ColumnLayout.broadcastTo_a1_ab_apply _ broadcasts_S2048x1_S2048x256 r d).trans ?_
  refine congrArg Ideal.sqrt ?_
  exact (ColumnLayout.shapeCast_a_a1_apply _ shapeCasts_S2048_S2048x1 r (0 : Fin 1)).trans (sumsq_apply x0 r)

/-- The accumulator's reset value. -/
theorem reset_apply (r : Fin 2048) : (k0_pay2 (F := Ideal)) (ix2 r (0 : Fin 1)) = 0 := by
  unfold k0_pay2
  refine (congrFun (shapeCast_self _ shapeCasts_S2048x1_S2048x1) (ix2 r (0 : Fin 1))).trans ?_
  -- a splat reads its scalar, the word 0 of f32, which is the real 0
  exact Ideal.ofBits_zero_f32

/-- The accumulator's update at row r. -/
theorem update_apply (x1 : FVec Ideal S1024x256 .f32) (xs0 : FVec Ideal S2048x256 .bf16) (xs1 : FVec Ideal S2048x1 .f32) (r : Fin 2048) :
    (k0_pay3 (F := Ideal) x1 xs0 xs1) (ix2 r (0 : Fin 1))
      = xs1 (ix2 r (0 : Fin 1)) + ∑ c' : Fin 1024, Ideal.exp (∑ d : Fin 256, xs0 (ix2 r d) * x1 (ix2 c' d)) := by
  unfold k0_pay3
  refine (congrFun (shapeCast_self _ shapeCasts_S2048x1_S2048x1) (ix2 r (0 : Fin 1))).trans ?_
  -- the sum is pointwise; its second operand is the row sums' vector viewed as a column
  refine congrArg (fun t => xs1 (ix2 r (0 : Fin 1)) + t) ?_
  refine (ColumnLayout.shapeCast_a_a1_apply _ shapeCasts_S2048_S2048x1 r (0 : Fin 1)).trans ?_
  refine (rowsum_apply _ r).trans ?_
  -- the exponential is pointwise, and the class block's format change is the identity on extended reals
  refine Finset.sum_congr rfl fun c' _ => ?_
  exact congrArg Ideal.exp (dot_apply xs0 (truncf .bf16 x1 bitsLt_bf16_f32) r c')

/-- The output at row r. -/
theorem out_apply (v : FVec Ideal S2048x1 .f32) (r : Fin 2048) :
    (k0_pay4 (F := Ideal) v) (ix2 r (0 : Fin 1)) = Ideal.log (v (ix2 r (0 : Fin 1))) := by
  -- the logarithm is pointwise
  rfl

end Cert.KernelIdeal.Payload

end
-- ==== Proof.KValue.lean ====
/-
  What the pallas_call leaves in its result array, on the extended reals: entry (2048 p + r, 0) is the
  log-sum-exp of row 2048 p + r's logits.

  Grid point t = 32 p + j works on row block p of x (2048 rows) and tile j of the class table (1024 classes).
  By induction on the point: after point 32 p + j the first scratch holds the rows of block p, normalised and
  divided by the temperature, and the accumulator holds, at row r, the sum over tiles 0 … j of the exponentials of
  that row's scaled dot products. The output block is stored, and written back, at j = 31 only: it is the
  logarithm of the full sum, and the two write-backs (p = 0, 1) cover the 4096 rows.
-/
import proofs.«423801_j14465449853585_3_alg».proof.Proof.KPieces
import proofs.«423801_j14465449853585_3_alg».proof.Proof.KPayload
import proofs.«423801_j14465449853585_3_alg».proof.Proof.Spec
import Idealize.ShloMosaic.Lib.Pipeline.Value

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The argument x as the region finds it, over plain indices. -/
def X (c : Dev nD) : Fin 4096 → Fin 256 → EReal := fun b d => (V m c main_arg0 : FVec Ideal S4096x256 .f32) (ix2 b d)

/-- The class table as the region finds it, over plain indices. -/
def CEN (c : Dev nD) : Fin 32768 → Fin 256 → EReal := fun k d => (V m c main_arg1 : FVec Ideal S32768x256 .f32) (ix2 k d)

/-! ## The grid's points and the blocks they work on -/

/-- The grid has 64 points. -/
theorem N64 : cfg0.N = 64 := N_0

/-- The row block a grid point works on, -/
abbrev pOf (t : Fin cfg0.N) : Fin 2 := ⟨t.val / 32, by have := t.isLt; have := N64; omega⟩
/-- and its tile of the class table. -/
abbrev jOf (t : Fin cfg0.N) : Fin 32 := ⟨t.val % 32, Nat.mod_lt _ (by decide)⟩

/-- The block of x staged at point t, -/
abbrev xblk (c : Dev nD) (t : Fin cfg0.N) : FVec Ideal S2048x256 .f32 := iblk m c 0 t
/-- and the block of the class table. -/
abbrev cblk (c : Dev nD) (t : Fin cfg0.N) : FVec Ideal S1024x256 .f32 := iblk m c 1 t

/-- The block of x at point t is block (t / 32, 0): decided once over the grid, -/
theorem idx_x : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)
/-- that of the class table block (t % 32, 0), -/
theorem idx_c : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)
/-- and the output block is block (t / 32, 0). -/
theorem idx_o : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- Row r of the block of x at point t is row 2048 (t / 32) + r of x. -/
theorem xblk_apply (c : Dev nD) (t : Fin cfg0.N) (r : Fin 2048) (d : Fin 256) :
    xblk m c t (ix2 r d) = X m c (Cert.Spec.row (pOf t) r) d := by
  unfold xblk iblk X
  rw [View.read_apply]
  show V m c main_arg0 (((cfg0.win 0).blk t).view.emb (ix2 r d)) = V m c main_arg0 (ix2 (Cert.Spec.row (pOf t) r) d)
  congr 1
  funext a
  apply Fin.ext
  match a with
  | ⟨0, _⟩ => show win0_0.index t 0 * 2048 + 1 * r.val = (t.val / 32) * 2048 + r.val; rw [(idx_x t).1]; omega
  | ⟨1, _⟩ => show win0_0.index t 1 * 256 + 1 * d.val = d.val; rw [(idx_x t).2]; omega

/-- Row c' of the block of the class table at point t is class 1024 (t % 32) + c'. -/
theorem cblk_apply (c : Dev nD) (t : Fin cfg0.N) (c' : Fin 1024) (d : Fin 256) :
    cblk m c t (ix2 c' d) = CEN m c (Cert.Spec.cls (jOf t) c') d := by
  unfold cblk iblk CEN
  rw [View.read_apply]
  show V m c main_arg1 (((cfg0.win 1).blk t).view.emb (ix2 c' d)) = V m c main_arg1 (ix2 (Cert.Spec.cls (jOf t) c') d)
  congr 1
  funext a
  apply Fin.ext
  match a with
  | ⟨0, _⟩ => show win0_1.index t 0 * 1024 + 1 * c'.val = (t.val % 32) * 1024 + c'.val; rw [(idx_c t).1]; omega
  | ⟨1, _⟩ => show win0_1.index t 1 * 256 + 1 * d.val = d.val; rw [(idx_c t).2]; omega

/-! ## The accumulator's recurrence -/

section Sums

variable (x : Fin 4096 → Fin 256 → EReal) (cen : Fin 32768 → Fin 256 → EReal) (b : Fin 4096)

/-- After the first tile the accumulator is that tile's sum. -/
theorem partialSum_zero : Cert.Spec.partialSum x cen b 0 = Cert.Spec.tile x cen b 0 := by
  unfold Cert.Spec.partialSum
  rw [Finset.sum_eq_single (0 : Fin 32)]
  · exact if_pos (Nat.le_refl _)
  · intro j _ hj
    exact if_neg (fun h => hj (Fin.ext (Nat.le_zero.mp h)))
  · intro h; exact absurd (Finset.mem_univ _) h

/-- Each later tile adds its own sum. -/
theorem partialSum_step (j : Fin 32) (k : ℕ) (hk : k + 1 = j.val) :
    Cert.Spec.partialSum x cen b j.val = Cert.Spec.partialSum x cen b k + Cert.Spec.tile x cen b j := by
  unfold Cert.Spec.partialSum
  have hterm : ∀ i : Fin 32, (if i.val ≤ j.val then Cert.Spec.tile x cen b i else 0)
      = (if i.val ≤ k then Cert.Spec.tile x cen b i else 0) + (if i = j then Cert.Spec.tile x cen b i else 0) := by
    intro i
    by_cases h1 : i.val ≤ k
    · have h2 : i.val ≤ j.val := by omega
      have h3 : i ≠ j := fun e => by rw [e] at h1; omega
      rw [if_pos h1, if_pos h2, if_neg h3, add_zero]
    · by_cases h3 : i = j
      · rw [if_neg h1, if_pos h3, if_pos (by rw [h3]), zero_add]
      · have h2 : ¬ i.val ≤ j.val := fun h => h3 (Fin.ext (by omega))
        rw [if_neg h1, if_neg h2, if_neg h3, add_zero]
  rw [Finset.sum_congr rfl (fun i _ => hterm i), Finset.sum_add_distrib, Finset.sum_ite_eq' Finset.univ j]
  rw [if_pos (Finset.mem_univ _)]

end Sums

/-! ## The two payloads on the region's arrays -/

/-- A block holding the rows of row block p of x: its rows, normalised and divided by the temperature. -/
theorem scaled_rows (x : Fin 4096 → Fin 256 → EReal) (p : Fin 2) (x0 : FVec Ideal S2048x256 .f32)
    (hx : ∀ r d, x0 (ix2 r d) = x (Cert.Spec.row p r) d) (r : Fin 2048) (d : Fin 256) :
    (k0_pay1 (F := Ideal) x0) (ix2 r d) = Ideal.div (Cert.Spec.fhat x (Cert.Spec.row p r) d) Cert.Spec.kk := by
  refine (Payload.scaled_apply x0 r d).trans ?_
  unfold Cert.Spec.fhat Cert.Spec.nrm
  simp only [hx]

/-- The accumulator's update on the scaled rows of row block p and tile j of the class table: it adds the tile's sum of exponentials. -/
theorem update_rows (x : Fin 4096 → Fin 256 → EReal) (cen : Fin 32768 → Fin 256 → EReal) (p : Fin 2) (j : Fin 32)
    (x1 : FVec Ideal S1024x256 .f32) (xs0 : FVec Ideal S2048x256 .bf16) (xs1 : FVec Ideal S2048x1 .f32)
    (hc : ∀ c' d, x1 (ix2 c' d) = cen (Cert.Spec.cls j c') d)
    (hs : ∀ r d, xs0 (ix2 r d) = Ideal.div (Cert.Spec.fhat x (Cert.Spec.row p r) d) Cert.Spec.kk) (r : Fin 2048) :
    (k0_pay3 (F := Ideal) x1 xs0 xs1) (ix2 r (0 : Fin 1))
      = xs1 (ix2 r (0 : Fin 1)) + Cert.Spec.tile x cen (Cert.Spec.row p r) j := by
  refine (Payload.update_apply x1 xs0 xs1 r).trans ?_
  unfold Cert.Spec.tile Cert.Spec.slogit
  simp only [hc, hs]

/-! ## What the two carried buffers hold after each point -/

/-- After point n = 32 p + j: the first buffer holds the scaled normalised rows of row block p, the second, at row r,
    the sum of the exponentials over tiles 0 … j. -/
def Inv (c : Dev nD) (n : ℕ) (hn : n < cfg0.N) : Prop :=
  (∀ (r : Fin 2048) (d : Fin 256), ((outsAt0 m c n hn).2.1 : FVec Ideal S2048x256 .bf16) (ix2 r d)
      = Ideal.div (Cert.Spec.fhat (X m c) (Cert.Spec.row (pOf ⟨n, hn⟩) r) d) Cert.Spec.kk)
  ∧ (∀ r : Fin 2048, ((outsAt0 m c n hn).2.2 : FVec Ideal S2048x1 .f32) (ix2 r (0 : Fin 1))
      = Cert.Spec.partialSum (X m c) (CEN m c) (Cert.Spec.row (pOf ⟨n, hn⟩) r) (n % 32))

/-- At the first tile of a row block the rows are stored and the accumulator restarts from zero. -/
theorem inv_first (c : Dev nD) (t : Fin cfg0.N) (h0 : t.val % 32 = 0) : Inv m c t.val t.isLt := by
  have h1 : ¬ t.val % 32 = 31 := by omega
  unfold Inv
  rw [outsAt0_A m c t h0 h1]
  dsimp only
  constructor
  · intro r d
    refine (congrFun (Pieces.scaled_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (cblk m c t)) (ix2 r d)).trans ?_
    exact scaled_rows (X m c) (pOf t) (xblk m c t) (xblk_apply m c t) r d
  · intro r
    refine (congrFun (Pieces.acc_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (cblk m c t)) (ix2 r (0 : Fin 1))).trans ?_
    refine (update_rows (X m c) (CEN m c) (pOf t) (jOf t) (cblk m c t) (k0_pay1 (F := Ideal) (xblk m c t)) (k0_pay2 (F := Ideal))
      (cblk_apply m c t) (scaled_rows (X m c) (pOf t) (xblk m c t) (xblk_apply m c t)) r).trans ?_
    rw [Payload.reset_apply, zero_add]
    have hj : jOf t = 0 := Fin.ext h0
    rw [hj, h0]
    exact (partialSum_zero (X m c) (CEN m c) _).symm

/-- At a later tile the rows are kept and the accumulator gains the tile's sum, over what the point before left. -/
theorem inv_later (c : Dev nD) (t : Fin cfg0.N) (h0 : ¬ t.val % 32 = 0)
    (hlt : t.val - 1 < cfg0.N) (ih : Inv m c (t.val - 1) hlt) : Inv m c t.val t.isLt := by
  have hN := N64
  have ht := t.isLt
  -- the point before is in the same row block, one tile earlier
  have hp : pOf ⟨t.val - 1, hlt⟩ = pOf t := Fin.ext (by show (t.val - 1) / 32 = t.val / 32; omega)
  obtain ⟨ih1, ih2⟩ := ih
  rw [hp] at ih1 ih2
  have hacc : ∀ r : Fin 2048,
      (k0_pay3 (F := Ideal) (cblk m c t) (outsAt0 m c (t.val - 1) hlt).2.1 (outsAt0 m c (t.val - 1) hlt).2.2) (ix2 r (0 : Fin 1))
        = Cert.Spec.partialSum (X m c) (CEN m c) (Cert.Spec.row (pOf t) r) (t.val % 32) := by
    intro r
    refine (update_rows (X m c) (CEN m c) (pOf t) (jOf t) (cblk m c t) (outsAt0 m c (t.val - 1) hlt).2.1 (outsAt0 m c (t.val - 1) hlt).2.2
      (cblk_apply m c t) ih1 r).trans ?_
    rw [ih2 r]
    exact (partialSum_step (X m c) (CEN m c) _ (jOf t) ((t.val - 1) % 32) (by show (t.val - 1) % 32 + 1 = t.val % 32; omega)).symm
  unfold Inv
  by_cases h1 : t.val % 32 = 31
  · rw [outsAt0_C m c t h0 h1]
    dsimp only
    constructor
    · intro r d
      unfold sout0_C_0
      exact ih1 r d
    · intro r
      refine (congrFun (Pieces.acc_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (cblk m c t) (outsAt0 m c (t.val - 1) hlt).2.1 (outsAt0 m c (t.val - 1) hlt).2.2) (ix2 r (0 : Fin 1))).trans ?_
      exact hacc r
  · rw [outsAt0_B m c t h0 h1]
    dsimp only
    constructor
    · intro r d
      unfold sout0_B_0
      exact ih1 r d
    · intro r
      refine (congrFun (Pieces.acc_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xblk m c t) (cblk m c t) (outsAt0 m c (t.val - 1) hlt).2.1 (outsAt0 m c (t.val - 1) hlt).2.2) (ix2 r (0 : Fin 1))).trans ?_
      exact hacc r

/-- The invariant holds after every point: by induction on the point. -/
theorem inv_all (c : Dev nD) : ∀ (n : ℕ) (hn : n < cfg0.N), Inv m c n hn := by
  intro n
  induction n with
  | zero => intro hn; exact inv_first m c ⟨0, hn⟩ rfl
  | succ k ih =>
    intro hn
    by_cases h0 : (k + 1) % 32 = 0
    · exact inv_first m c ⟨k + 1, hn⟩ h0
    · exact inv_later m c ⟨k + 1, hn⟩ h0 (Nat.lt_of_succ_lt hn) (ih (Nat.lt_of_succ_lt hn))

/-! ## The write-backs and the result array -/

/-- The array the region leaves: at row i the log-sum-exp of that row's logits. -/
abbrev G (c : Dev nD) : FVec Ideal S4096x1 .f32 :=
  fun i => Cert.Spec.lse (X m c) (CEN m c) ⟨(i 0).val, idx2_lt0 i⟩

/-- At the last tile of row block p the output block holds, at row r, the logarithm of the full sum. -/
theorem out_rows (c : Dev nD) (t : Fin cfg0.N) (h0 : ¬ t.val % 32 = 0) (h31 : t.val % 32 = 31) (r : Fin 2048) :
    ((outsAt0 m c t.val t.isLt).1 : FVec Ideal S2048x1 .f32) (ix2 r (0 : Fin 1))
      = Cert.Spec.lse (X m c) (CEN m c) (Cert.Spec.row (pOf t) r) := by
  have hlt : t.val - 1 < cfg0.N := Nat.lt_of_le_of_lt (Nat.sub_le _ _) t.isLt
  -- the accumulator just stored, by the invariant at this point
  have hacc := (inv_all m c t.val t.isLt).2 r
  rw [outsAt0_C m c t h0 h31] at hacc ⊢
  dsimp only at hacc ⊢
  have e3 : (k0_pay3 (F := Ideal) (cblk m c t) (outsAt0 m c (t.val - 1) hlt).2.1 (outsAt0 m c (t.val - 1) hlt).2.2) (ix2 r (0 : Fin 1))
      = Cert.Spec.partialSum (X m c) (CEN m c) (Cert.Spec.row (pOf t) r) (t.val % 32) :=
    (congrFun (Pieces.acc_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h31) (xblk m c t) (cblk m c t) (outsAt0 m c (t.val - 1) hlt).2.1 (outsAt0 m c (t.val - 1) hlt).2.2) (ix2 r (0 : Fin 1))).symm.trans hacc
  refine (congrFun (Pieces.out_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h31) (xblk m c t) (cblk m c t) (outsAt0 m c (t.val - 1) hlt).2.1 (outsAt0 m c (t.val - 1) hlt).2.2) (ix2 r (0 : Fin 1))).trans ?_
  refine (Payload.out_apply _ r).trans ?_
  rw [e3, h31, Cert.Spec.partialSum_last]
  rfl

/-- Row r of the output block at point t is row 2048 p + r of the result array. -/
theorem G_emb (c : Dev nD) (t : Fin cfg0.N) (r : Fin 2048) :
    G m c (((cfg0.win 2).blk t).view.emb (ix2 r (0 : Fin 1)))
      = Cert.Spec.lse (X m c) (CEN m c) (Cert.Spec.row (pOf t) r) := by
  refine congrArg (Cert.Spec.lse (X m c) (CEN m c)) (Fin.ext ?_)
  show win0_2.index t 0 * 2048 + 1 * r.val = (t.val / 32) * 2048 + r.val
  rw [(idx_o t).1]; omega

/-- The output block of point t read out of any array, at row r: the array at the row the block's view sends it to. -/
theorem read_o (t : Fin cfg0.N) (g : FVec Ideal S4096x1 .f32) (r : Fin 2048) :
    (((cfg0.win 2).blk t).view.read (Elt Ideal) g : FVec Ideal S2048x1 .f32) (ix2 r (0 : Fin 1))
      = g (((cfg0.win 2).blk t).view.emb (ix2 r (0 : Fin 1))) := rfl

/-- The window's blocks are never cut: what is written back is the whole staging buffer. -/
theorem cut_o (t : Fin cfg0.N) (v : FVec Ideal S2048x1 .f32) (r : Fin 2048) :
    ((cfg0.win 2).cut (grid0.coords t) v : FVec Ideal S2048x1 .f32) (ix2 r (0 : Fin 1)) = v (ix2 r (0 : Fin 1)) := rfl

/-- What a write-back writes is its block of G. -/
theorem flushed_eq (c : Dev nD) (t : Fin cfg0.N) (hf : (cfg0.win 2).flush t = true) :
    (dats m 0 c).flushed 2 t = ((cfg0.win 2).blk t).view.read (Elt Ideal) (G m c) := by
  have h31 : t.val % 32 = 31 := (flush0_2 t).mp hf
  have h0 : ¬ t.val % 32 = 0 := by omega
  show (cfg0.win 2).cut (grid0.coords t) ((dats m 0 c).after 2 t) = _
  rw [after0_2]
  refine funext fun (y : S2048x1.Idx) => ?_
  obtain ⟨r, q, rfl⟩ : ∃ (r : Fin 2048) (q : Fin 1), y = ix2 r q := ⟨y 0, y 1, eq_ix2 y⟩
  obtain rfl : q = 0 := Subsingleton.elim _ _
  refine Eq.trans ?_ (read_o t (G m c) r).symm
  refine Eq.trans ?_ (G_emb m c t r).symm
  exact (cut_o t _ r).trans (out_rows m c t h0 h31 r)

/-- An index of the result array lies in the output block of point t when its row is one of the 2048 rows of row block t / 32. -/
theorem mem_blk_o (t : Fin cfg0.N) (i : S4096x1.Idx)
    (h : (t.val / 32) * 2048 ≤ (i 0).val ∧ (i 0).val < (t.val / 32) * 2048 + 2048) :
    i ∈ ((cfg0.win 2).blk t).view.set := by
  have hi1 : (i 1 : Nat) < 1 := (i 1).isLt
  show i ∈ ((View.whole main_v1).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(idx_o t).1]; exact h
  | ⟨1, _⟩ =>
    show win0_2.index t 1 * 1 ≤ (i 1 : Nat) ∧ (i 1 : Nat) < win0_2.index t 1 * 1 + 1
    rw [(idx_o t).2]; omega

/-- The result array of the pallas_call after the region: the log-sum-exp of each row's logits. -/
theorem final_lse (c : Dev nD) :
    ((dats m 0 c).arrAt 2 cfg0.N : FVec Ideal S4096x1 .f32)
      = fun i => Cert.Spec.lse (X m c) (CEN m c) ⟨(i 0).val, idx2_lt0 i⟩ := by
  refine (dats m 0 c).arrAt_eq_of_cover 2 (G m c) (flushed_eq m c) fun i => ?_
  have hi0 : ((i : S4096x1.Idx) 0 : Nat) < 4096 := ((i : S4096x1.Idx) 0).isLt
  have hN := N64
  -- row i 0 lies in row block (i 0) / 2048, which is written back at that block's last tile
  have ht : 32 * (((i : S4096x1.Idx) 0 : Nat) / 2048) + 31 < cfg0.N := by omega
  refine ⟨⟨32 * (((i : S4096x1.Idx) 0 : Nat) / 2048) + 31, ht⟩, (flush0_2 _).mpr ?_, mem_blk_o _ i ?_⟩
  · show (32 * (((i : S4096x1.Idx) 0 : Nat) / 2048) + 31) % 32 = 31
    omega
  · show (32 * (((i : S4096x1.Idx) 0 : Nat) / 2048) + 31) / 32 * 2048 ≤ ((i : S4096x1.Idx) 0 : Nat)
      ∧ ((i : S4096x1.Idx) 0 : Nat) < (32 * (((i : S4096x1.Idx) 0 : Nat) / 2048) + 31) / 32 * 2048 + 2048
    omega

end Cert.KernelIdeal.RegionValue

end
-- ==== Proof.LibRowTake.lean ====
/-
  A row gather read at an entry, at any extents, element type and index width.

  What `x[idx]` of a table `x : [N, C]` at a vector of row numbers kept as a column `idx : [M, 1]` is: a gather
  with offset axis `1`, collapsed axis `0`, start index map `[0]`, the index vector on axis `1` and slice sizes
  `[1, C]`. Entry `(p, h)` of the result is the table at `(r, h)`, `r` the start index `idx[p, 0]` read as a signed
  integer and clamped into `[0, N - 1]`.
-/
import Idealize.ShloMosaic.PureOps.ShapeOps
import Idealize.ShloMosaic.Lib.ValueIdx

namespace Idealize.ShloMosaic.RowTake

open Idealize.ShloMosaic Idealize.ShloMosaic.ValueIdx

variable {α : Type}

/-- Those dimension numbers for an operand `[N, C]`, start indices `[M, 1]` and result `[M, C]`; their conditions
    `wf` are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the row axis of the table: the start index read signed and clamped; no batch and no offset coordinate. -/
theorem row_coord_0 {N C M w : Nat}
    (wf : GatherDims.WF ⟨2, ![N, C]⟩ ⟨2, ![M, 1]⟩ ⟨2, ![M, C]⟩ [1] [0] [] [0] [] 1 ![1, C])
    (idx : IVec ⟨2, ![M, 1]⟩ w) (p : Fin M) (h : Fin C) :
    (rowDims N C M wf).start (ix2 p h) idx (0 : Fin 2) + (rowDims N C M wf).batchCoord (ix2 p h) (0 : Fin 2)
      + (rowDims N C M wf).offCoord (ix2 p h) (0 : Fin 2) = min (idx (ix2 p (0 : Fin 1))).toInt.toNat (N - 1) := by
  have hcol : (0 : Fin 2) ∈ (rowDims N C M wf).collapsedSliceDims := show (0 : Fin 2) ∈ [(0 : Fin 2)] from by decide
  have hsim : (0 : Fin 2) ∈ (rowDims N C M wf).startIndexMap := show (0 : Fin 2) ∈ [(0 : Fin 2)] from by decide
  rw [GatherDims.batchCoord_eq_zero _ _ _ List.not_mem_nil,
    GatherDims.offCoord_eq_zero _ _ _ (fun hm => ((GatherDims.mem_sKept _ _).mp hm).1 hcol)]
  unfold GatherDims.start
  rw [dif_pos hsim]
  have hsi : (rowDims N C M wf).siIdx (ix2 p h) ⟨List.idxOf (0 : Fin 2) (rowDims N C M wf).startIndexMap,
      List.idxOf_lt_length_iff.2 hsim⟩ = ix2 p (0 : Fin 1) := by
    funext c; refine Fin.ext ?_
    match c with
    | ⟨0, _⟩ => rfl
    | ⟨1, _⟩ => rfl
  rw [hsi]
  show min (idx (ix2 p (0 : Fin 1))).toInt.toNat (N - 1) + 0 + 0 = _
  omega

/-- On the column axis of the table: the result's offset coordinate; no start and no batch coordinate. -/
theorem row_coord_1 {N C M w : Nat}
    (wf : GatherDims.WF ⟨2, ![N, C]⟩ ⟨2, ![M, 1]⟩ ⟨2, ![M, C]⟩ [1] [0] [] [0] [] 1 ![1, C])
    (idx : IVec ⟨2, ![M, 1]⟩ w) (p : Fin M) (h : Fin C) :
    (rowDims N C M wf).start (ix2 p h) idx (1 : Fin 2) + (rowDims N C M wf).batchCoord (ix2 p h) (1 : Fin 2)
      + (rowDims N C M wf).offCoord (ix2 p h) (1 : Fin 2) = h.val := by
  have hns : (1 : Fin 2) ∉ (rowDims N C M wf).startIndexMap := show (1 : Fin 2) ∉ [(0 : Fin 2)] from by decide
  have hk : (1 : Fin 2) ∈ (rowDims N C M wf).sKept :=
    (GatherDims.mem_sKept _ _).mpr ⟨show (1 : Fin 2) ∉ [(0 : Fin 2)] from by decide, List.not_mem_nil⟩
  rw [GatherDims.batchCoord_eq_zero _ _ _ List.not_mem_nil]
  unfold GatherDims.start
  rw [dif_neg hns]
  unfold GatherDims.offCoord
  rw [dif_pos hk]
  show 0 + 0 + h.val = h.val
  omega

/-- THE ROW GATHER READ AT `(p, h)`: the table's row `idx[p, 0]`, read signed and clamped into `[0, N - 1]`, at
    column `h`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (p : Fin M) (h : Fin C) :
    Host.gather (rowDims N C M wf) x idx (ix2 p h)
      = x (ix2 (⟨min (idx (ix2 p (0 : Fin 1))).toInt.toNat (N - 1), by omega⟩ : Fin N) h) := by
  unfold Host.gather
  refine congrArg x (funext fun a => Fin.ext ?_)
  match a with
  | ⟨0, _⟩ => exact row_coord_0 wf idx p h
  | ⟨1, _⟩ => exact row_coord_1 wf idx p h

end Idealize.ShloMosaic.RowTake
-- ==== Proof.KTail.lean ====
/-
  The host operations after the pallas_call, and the kernel program's run read as a value.

  After the region the program reshapes the column of log-sum-exps to a vector, normalises the rows of x again,
  gathers the class-table row of each (clamped) label, takes the row-wise dot product, divides by the temperature,
  subtracts the log-sum-exp and exponentiates. With every label in range the clamp and the negative-index wrap
  are the identity, and entry b of the result is the softmax probability of row b's labelled class.
-/
import proofs.«423801_j14465449853585_3_alg».proof.Proof.KValue
import proofs.«423801_j14465449853585_3_alg».proof.Proof.LibRowTake
import proofs.«423801_j14465449853585_3_alg».proof.Proof.LibSmallWords
import proofs.«423801_j14465449853585_3_alg».proof.Proof.LibColumnToVector
import Idealize.ShloMosaic.Lib.StableHlo.Run
import Idealize.ShloMosaic.PureOps.Ideal.Laws

noncomputable section

namespace Cert.KernelIdeal.TailValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RegionValue

variable (m : (ℓ : Loc nD τ sig) → Buf (Elt Ideal) ℓ) (ρ : Dev nD → PrngReg)

/-- The operations after the region as one function of the four buffers they read: the rows x, the class table,
    the clipped labels and the column of log-sum-exps. -/
def tailOf (x : FVec Ideal S4096x256 .f32) (cen : FVec Ideal S32768x256 .f32) (v0 : IVec S4096 32)
    (col : FVec Ideal S4096x1 .f32) : FVec Ideal S4096 .f32 :=
  Host.exp
    (subf
      (Host.divf
        (Host.reduceAdd
          (mulf
            (Host.divf x
              (broadcastInDim S4096x256 ![0, 1] bcast_S4096x1_S4096x256_0_1
                (Host.sqrt
                  (broadcastInDim S4096x1 ![0] bcast_S4096_S4096x1_0
                    (Host.reduceAdd (mulf x x) (constant (F := Ideal) S_ .f32 0x00000000#32)
                      reducesTo_S4096x256_S4096_d1 h_S_)))))
            (Host.gather gather_S32768x256_S4096x1_S4096x256_1_0_n_n_0_1_1256 cen
              (broadcastInDim S4096x1 ![0] bcast_S4096_S4096x1_0
                (select (cmpi .slt v0 (broadcastInDim S4096 ![] bcast_S_S4096 (constantI S_ 32 0#32)))
                  (addi v0 (broadcastInDim S4096 ![] bcast_S_S4096 (constantI S_ 32 32768#32))) v0))))
          (constant (F := Ideal) S_ .f32 0x00000000#32) reducesTo_S4096x256_S4096_d1 h_S_)
        (broadcastInDim S4096 ![] bcast_S_S4096 (constant (F := Ideal) S_ .f32 0x3D4CCCCD#32)))
      (shapeCast S4096 col shapeCasts_S4096x1_S4096))

/-- The core's buffers as the region leaves them: the pipeline's arrays at what the region computed, every other
    buffer as the region found it. -/
abbrev W (c : Dev nD) : Valuation τ sig (Elt Ideal) :=
  Pipeline.withArrays spec0 c (V0 m c) (fun w => (dats m 0 c).arrAt w cfg0.N)

/-- The result buffer after the tail is the tail's function of the four buffers it reads. -/
theorem tail_eq (c : Dev nD) :
    (Pipeline.afterTail₀ cfgs (dats m) 0 (V0 m) [hostOps1, hostOps1_1, hostOps1_2] c main_v18 : FVec Ideal S4096 .f32)
      = tailOf (W m c (Proc.devRef .tc main_arg0)) (W m c (Proc.devRef .tc main_arg1)) (W m c (Proc.devRef .tc main_v0))
          (W m c (Proc.devRef .tc main_v1)) := by
  unfold Pipeline.afterTail₀
  simp only [hostOps1, hostOps1_1, hostOps1_2, List.flatten_cons, List.flatten_nil, List.append_nil, List.cons_append, List.nil_append]
  after_results_simp
  rfl

/-- x is an input window's array: the region leaves it as it found it. -/
theorem W_arg0 (c : Dev nD) : (W m c (Proc.devRef .tc main_arg0) : FVec Ideal S4096x256 .f32) = V m c main_arg0 :=
  (Pipeline.withArrays_arr spec0 launch0.win.arr_inj c _ _ 0).trans (((dats m 0 c).arrAt_in 0 rfl _).trans (A_eq m c 0))

/-- So is the class table. -/
theorem W_arg1 (c : Dev nD) : (W m c (Proc.devRef .tc main_arg1) : FVec Ideal S32768x256 .f32) = V m c main_arg1 :=
  (Pipeline.withArrays_arr spec0 launch0.win.arr_inj c _ _ 1).trans (((dats m 0 c).arrAt_in 1 rfl _).trans (A_eq m c 1))

/-- The region's result array holds the column of log-sum-exps. -/
theorem W_v1 (c : Dev nD) : (W m c (Proc.devRef .tc main_v1) : FVec Ideal S4096x1 .f32)
    = fun i => Cert.Spec.lse (X m c) (CEN m c) ⟨(i 0).val, idx2_lt0 i⟩ :=
  (Pipeline.withArrays_arr spec0 launch0.win.arr_inj c _ _ 2).trans (final_lse m c)

/-- The clipped labels are no array of the pipeline: the region leaves them alone. -/
theorem W_v0 (c : Dev nD) : (W m c (Proc.devRef .tc main_v0) : IVec S4096 32) = V m c main_v0 :=
  Pipeline.withArrays_of_ne _ c (V0 m c) _ main_v0 (by exact (by decide : ∀ w, Pipeline.arrRef spec0 w ≠ main_v0))

/-- They are the launched labels raised to zero and lowered to 32767, written before the region. -/
theorem V_v0 (c : Dev nD) : (V m c main_v0 : IVec S4096 32)
    = minsi (broadcastInDim S4096 ![] bcast_S_S4096 (constantI S_ 32 32767#32))
        (maxsi (broadcastInDim S4096 ![] bcast_S_S4096 (constantI S_ 32 0#32)) (m ((c : Thread nD τ).loc main_arg2))) := by
  unfold V V0
  simp only [hostOps0, hostOps0_1, List.flatten_cons, List.flatten_nil, List.append_nil, List.cons_append, List.nil_append]
  after_results
  rfl

/-- The host's root, exponential and quotient of vectors are pointwise, on the extended reals the exact ones. -/
theorem hostSqrt_apply {s : Shape} (y : FVec Ideal s .f32) (i : s.Idx) : Host.sqrt y i = Ideal.sqrt (y i) := rfl
theorem hostExp_apply {s : Shape} (y : FVec Ideal s .f32) (i : s.Idx) : Host.exp y i = Ideal.exp (y i) := rfl
theorem hostDivf_apply {s : Shape} (y z : FVec Ideal s .f32) (i : s.Idx) : Host.divf y z i = Ideal.div (y i) (z i) := rfl

/-- The host sum over the columns of a [4096, 256] array, started from the f32 zero, at row b. -/
theorem rowSum_apply (y : FVec Ideal S4096x256 .f32) (b : Fin 4096) :
    Host.reduceAdd y (constant (F := Ideal) S_ .f32 0x00000000#32) reducesTo_S4096x256_S4096_d1 h_S_ (ix1 b)
      = ∑ d : Fin 256, y (ix2 b d) := by
  have hR : S4096x256.Reduces [1] S4096 := by decide
  show Ideal.hostReduceAdd reducesTo_S4096x256_S4096_d1 y (Ideal.ofBits .f32 0x00000000#32) (ix1 b) = _
  rw [Ideal.hostReduceAdd_single _ hR, Ideal.ofBits_zero_f32, zero_add]
  refine Finset.sum_congr rfl fun d _ => congrArg y ?_
  funext a
  match a with
  | ⟨0, _⟩ => exact Fin.ext rfl
  | ⟨1, _⟩ => exact Fin.ext rfl

/-- The norm column broadcast along the rows, at (b, d): the root of row b's sum of squares. -/
theorem normCol_apply (x : FVec Ideal S4096x256 .f32) (b : Fin 4096) (d : Fin 256) :
    broadcastInDim S4096x256 ![0, 1] bcast_S4096x1_S4096x256_0_1
        (Host.sqrt (broadcastInDim S4096x1 ![0] bcast_S4096_S4096x1_0
          (Host.reduceAdd (mulf x x) (constant (F := Ideal) S_ .f32 0x00000000#32) reducesTo_S4096x256_S4096_d1 h_S_)))
        (ix2 b d)
      = Ideal.sqrt (∑ d' : Fin 256, x (ix2 b d') * x (ix2 b d')) := by
  rw [broadcastInDim_apply _ _ _ _ (ix2 b (0 : Fin 1)) (fun a => match a with | ⟨0, _⟩ => rfl | ⟨1, _⟩ => rfl),
    hostSqrt_apply, broadcastInDim_apply _ _ _ _ (ix1 b) (fun a => match a with | ⟨0, _⟩ => rfl), rowSum_apply]
  rfl

/-- The start-index column at (b, 0): a small non-negative label, wrapped, is itself. -/
theorem idxCol_apply (v0 : IVec S4096 32) (b : Fin 4096) (l : BitVec 32) (hv : v0 (ix1 b) = l) (hl : l.toNat < 2 ^ 31) :
    broadcastInDim S4096x1 ![0] bcast_S4096_S4096x1_0
        (select (cmpi .slt v0 (broadcastInDim S4096 ![] bcast_S_S4096 (constantI S_ 32 0#32)))
          (addi v0 (broadcastInDim S4096 ![] bcast_S_S4096 (constantI S_ 32 32768#32))) v0)
        (ix2 b (0 : Fin 1)) = l := by
  rw [broadcastInDim_apply _ _ _ _ (ix1 b) (fun a => match a with | ⟨0, _⟩ => rfl)]
  show Scalar.select (IntOp.cmpi .slt (v0 (ix1 b)) 0#32) (IntOp.addi (v0 (ix1 b)) 32768#32) (v0 (ix1 b)) = l
  rw [hv]
  exact Cert.Lib.wrap_eval _ hl

/-- The program's gather record is the row gather's. -/
theorem gather_eq : gather_S32768x256_S4096x1_S4096x256_1_0_n_n_0_1_1256
    = RowTake.rowDims 32768 256 4096 gather_S32768x256_S4096x1_S4096x256_1_0_n_n_0_1_1256_wf := rfl

/-- The tail at row b, where the clipped label is a small non-negative word l: the exponential of the scaled dot
    product of the normalised row with the class table's row l (read signed and clamped into the table), less the
    column's entry. -/
theorem tailOf_apply (x : FVec Ideal S4096x256 .f32) (cen : FVec Ideal S32768x256 .f32) (v0 : IVec S4096 32)
    (col : FVec Ideal S4096x1 .f32) (b : Fin 4096) (l : BitVec 32) (hv : v0 (ix1 b) = l) (hl : l.toNat < 2 ^ 31) :
    tailOf x cen v0 col (ix1 b)
      = Ideal.exp (Ideal.div
          (∑ d : Fin 256, Ideal.div (x (ix2 b d)) (Ideal.sqrt (∑ d' : Fin 256, x (ix2 b d') * x (ix2 b d')))
            * cen (ix2 (⟨min l.toInt.toNat 32767, by omega⟩ : Fin 32768) d))
          Cert.Spec.kk - col (ix2 b (0 : Fin 1))) := by
  have hsum : ∀ d : Fin 256,
      mulf (Host.divf x
            (broadcastInDim S4096x256 ![0, 1] bcast_S4096x1_S4096x256_0_1
              (Host.sqrt
                (broadcastInDim S4096x1 ![0] bcast_S4096_S4096x1_0
                  (Host.reduceAdd (mulf x x) (constant (F := Ideal) S_ .f32 0x00000000#32)
                    reducesTo_S4096x256_S4096_d1 h_S_)))))
          (Host.gather gather_S32768x256_S4096x1_S4096x256_1_0_n_n_0_1_1256 cen
            (broadcastInDim S4096x1 ![0] bcast_S4096_S4096x1_0
              (select (cmpi .slt v0 (broadcastInDim S4096 ![] bcast_S_S4096 (constantI S_ 32 0#32)))
                (addi v0 (broadcastInDim S4096 ![] bcast_S_S4096 (constantI S_ 32 32768#32))) v0))) (ix2 b d)
        = Ideal.div (x (ix2 b d)) (Ideal.sqrt (∑ d' : Fin 256, x (ix2 b d') * x (ix2 b d')))
            * cen (ix2 (⟨min l.toInt.toNat 32767, by omega⟩ : Fin 32768) d) := by
    intro d
    have e := idxCol_apply v0 b l hv hl
    rw [mulf_apply, hostDivf_apply, normCol_apply, gather_eq, RowTake.gather_rows_apply (by decide)]
    simp only [e]
  unfold tailOf
  rw [hostExp_apply, subf_apply, hostDivf_apply, rowSum_apply, Cert.LibColumnToVector.shapeCast_col_vec_apply]
  simp only [hsum]
  rfl

/-- Row b's label word, as launched. -/
def LAB (c : Dev nD) : Fin 4096 → BitVec 32 := fun b => (m ((c : Thread nD τ).loc main_arg2) : IVec S4096 32) (ix1 b)

/-- Every label is a class index. -/
def InRange (c : Dev nD) : Prop := ∀ b : Fin 4096, 0 ≤ (LAB m c b).toInt ∧ (LAB m c b).toInt < 32768

/-- The program's result: the softmax probability of each row's labelled class. -/
def result (c : Dev nD) : FVec Ideal S4096 .f32 :=
  fun i => Cert.Spec.prob (X m c) (CEN m c) (fun b => Cert.Spec.labOf (LAB m c b)) ⟨(i 0).val, (i 0).isLt⟩

/-- What the host operations after the region leave in the result buffer, when every label is in range. -/
theorem tail_result (c : Dev nD) (hlab : InRange m c) :
    (Pipeline.afterTail₀ cfgs (dats m) 0 (V0 m) [hostOps1, hostOps1_1, hostOps1_2] c main_v18 : FVec Ideal S4096 .f32)
      = result m c := by
  rw [tail_eq, W_arg0, W_arg1, W_v0, W_v1, V_v0]
  funext i
  obtain ⟨b, rfl⟩ : ∃ b, i = ix1 b := ⟨i 0, eq_ix1 i⟩
  obtain ⟨h0, h1⟩ := hlab b
  obtain ⟨hlt, hnat⟩ := Cert.Lib.toNat_of_toInt_nonneg h0
  have h32 : (32767#32 : BitVec 32).toNat = 32767 := rfl
  -- with the label in [0, 32768) the clip leaves it alone
  have hclip : IntOp.minsi 32767#32 (IntOp.maxsi 0#32 (LAB m c b)) = LAB m c b :=
    Cert.Lib.clip_eval (by decide) (by omega)
  rw [tailOf_apply _ _ _ _ b (LAB m c b) hclip hlt]
  rfl

/-- The kernel program's run, read: it terminates with the result buffer at `result` and the arguments unchanged. -/
theorem run (hlab : ∀ c, InRange m c) :
    θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- the result buffer holds the tail's value; an input window's array ends as it began; no operation writes the labels
  exact (θ_run defs _ _).mono (fun _ h c =>
    ⟨((h c).2 main_v18 (Pipeline.mem_restRefs_of main_v18 (by decide) (by decide))).trans (tail_result m c (hlab c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.TailValue

end
-- ==== Proof.lean ====
/-
  The claim: a kernel that computes, for 4096 rows x and a table of 32768 class rows, the softmax probability of
  each row's labelled class — the row normalised to unit length, its dot products with the class rows divided by
  the temperature, exp (logit of the label − log-sum-exp over the classes) — against the reference that takes a
  log-softmax (row maximum subtracted) and reads the label's column.

  Under the precondition every label is a class index (0 ≤ label < 32768), so the kernel's clamp, the reference's
  negative-index wrap and its out-of-range fill do nothing. On the extended reals both programs then compute
  `Spec.prob`: the kernel divides the normalised row by the temperature before the dot product and sums the
  exponentials tile by tile without subtracting a maximum; division by a positive real distributes over any sum
  of extended reals, and the shifted log-softmax equals the unshifted one for every family of extended reals
  whose maximum is attained (SoftmaxLaw). Finiteness of the inputs is never used.

  The three frames: the two kernel programs' are the generated class-R frames; the reference's is its run with
  the result dropped. `preserves` has no ledger entry.
-/
import proofs.«423801_j14465449853585_3_alg».proof.Defs
import proofs.«423801_j14465449853585_3_alg».proof.Proof.Gen.Kernel.Frame
import proofs.«423801_j14465449853585_3_alg».proof.Proof.Gen.KernelIdeal.Frame
import proofs.«423801_j14465449853585_3_alg».proof.Proof.Gen.ReferenceIdeal
import proofs.«423801_j14465449853585_3_alg».proof.Proof.Gen.Pre_finite_inputs
import proofs.«423801_j14465449853585_3_alg».proof.Proof.RefRun
import proofs.«423801_j14465449853585_3_alg».proof.Proof.RefFold
import proofs.«423801_j14465449853585_3_alg».proof.Proof.RefValue
import proofs.«423801_j14465449853585_3_alg».proof.Proof.PreRange
import proofs.«423801_j14465449853585_3_alg».proof.Proof.KTail
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with row b of the result at the softmax probability of row b's labelled class: the kernel's
    run read as a value, and the reference's fold of its operations read stage by stage, of arguments that agree. -/
theorem algebraic : Cert.algebraic_KernelIdeal_ReferenceIdeal := by
  intro m ρ m' ρ' hpre hagree
  have hlab : ∀ c, Cert.KernelIdeal.TailValue.InRange m c := fun c b =>
    Cert.PreRange.labels_in_range (F := Ideal) _ _ _ (hpre c) b
  refine ⟨fun c => Cert.KernelIdeal.TailValue.result m c, Cert.KernelIdeal.TailValue.run m ρ hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Fold.fold_result]
  funext i
  obtain ⟨b, rfl⟩ : ∃ b : Fin 4096, i = ix1 b := ⟨i 0, eq_ix1 i⟩
  have e0 := (hagree c).1
  have e1 := (hagree c).2.1
  have e2 := (hagree c).2.2
  refine (Cert.ReferenceIdeal.RefValue.value_at _ _ _ (fun p => ?_) b).trans ?_
  · show 0 ≤ ((m' ((c.tc : Thread Cert.ReferenceIdeal.nD Cert.ReferenceIdeal.τ).loc Cert.ReferenceIdeal.main_arg2)) (ix1 p)).toInt
      ∧ ((m' ((c.tc : Thread Cert.ReferenceIdeal.nD Cert.ReferenceIdeal.τ).loc Cert.ReferenceIdeal.main_arg2)) (ix1 p)).toInt < 32768
    rw [e2]
    exact hlab c p
  · show Cert.Spec.prob _ _ _ b = Cert.Spec.prob _ _ _ _
    unfold Cert.KernelIdeal.RegionValue.X Cert.KernelIdeal.RegionValue.CEN Cert.KernelIdeal.TailValue.LAB
    rw [Cert.KernelIdeal.Gen.V_main_arg0, Cert.KernelIdeal.Gen.V_main_arg1]
    show Cert.Spec.prob (fun p d => (m' ((c.tc : Thread Cert.ReferenceIdeal.nD Cert.ReferenceIdeal.τ).loc Cert.ReferenceIdeal.main_arg0)) (ix2 p d))
      (fun k d => (m' ((c.tc : Thread Cert.ReferenceIdeal.nD Cert.ReferenceIdeal.τ).loc Cert.ReferenceIdeal.main_arg1)) (ix2 k d))
      (fun p => Cert.Spec.labOf ((m' ((c.tc : Thread Cert.ReferenceIdeal.nD Cert.ReferenceIdeal.τ).loc Cert.ReferenceIdeal.main_arg2)) (ix1 p))) b = _
    rw [e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
